-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_arg2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S8x512x512 : Shape := ⟨3, ![8, 512, 512]⟩
abbrev S8x1024 : Shape := ⟨2, ![8, 1024]⟩
abbrev S8x512x4 : Shape := ⟨3, ![8, 512, 4]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S8x512x512 : S_.BroadcastsInDim S8x512x512 (![] : Fin 0 → Fin S8x512x512.rank)
  reducesTo_S8x512x512_S_d0_1_2 : S8x512x512.ReducesTo [0, 1, 2] S_
  bcast_S_S8x1024 : S_.BroadcastsInDim S8x1024 (![] : Fin 0 → Fin S8x1024.rank)
  reducesTo_S8x1024_S_d0_1 : S8x1024.ReducesTo [0, 1] S_
  bcast_S_S8x512x4 : S_.BroadcastsInDim S8x512x4 (![] : Fin 0 → Fin S8x512x4.rank)
  reducesTo_S8x512x4_S_d0_1_2 : S8x512x4.ReducesTo [0, 1, 2] S_

variable [Facts]

def fn_part1 {F : FTy → Type} [FloatOps F] (main_arg3 : IVec S8x512x4 32) (main_v13 : IVec S_ 1) (main_v15 : IVec S8x512x4 1) (main_c_5 : IVec S_ 1) : IVec S_ 1 :=
  let main_v16 : IVec S_ 1 := (fun x v => Host.reduce IntOp.andi x v reducesTo_S8x512x4_S_d0_1_2 h_S_) main_v15 main_c_5
  let main_v17 : IVec S_ 1 := andi main_v13 main_v16
  let main_c_6 : IVec S_ 32 := constantI S_ 32 2048#32
  let main_v18 : IVec S8x512x4 32 := broadcastInDim S8x512x4 ![] bcast_S_S8x512x4 main_c_6
  let main_v19 : IVec S8x512x4 1 := cmpi .slt main_arg3 main_v18
  let main_c_7 : IVec S_ 1 := constantI S_ 1 1#1
  let main_v20 : IVec S_ 1 := (fun x v => Host.reduce IntOp.andi x v reducesTo_S8x512x4_S_d0_1_2 h_S_) main_v19 main_c_7
  let main_v21 : IVec S_ 1 := andi main_v17 main_v20
  main_v21

def fn {F : FTy → Type} [FloatOps F] (main_arg0 : FVec F S8x2048x512 .f32) (main_arg1 : FVec F S8x512x512 .f32) (main_arg2 : FVec F S8x1024 .f32) (main_arg3 : IVec S8x512x4 32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x512x512 .f32 := Host.absf main_arg1
  let main_cst_0 : FVec F S_ .f32 := constant S_ .f32 0x7F800000#32
  let main_v5 : FVec F S8x512x512 .f32 := broadcastInDim S8x512x512 ![] bcast_S_S8x512x512 main_cst_0
  let main_v6 : IVec S8x512x512 1 := cmpf .olt main_v4 main_v5
  let main_c_1 : IVec S_ 1 := constantI S_ 1 1#1
  let main_v7 : IVec S_ 1 := (fun x v => Host.reduce IntOp.andi x v reducesTo_S8x512x512_S_d0_1_2 h_S_) main_v6 main_c_1
  let main_v8 : IVec S_ 1 := andi main_v3 main_v7
  let main_v9 : FVec F S8x1024 .f32 := Host.absf main_arg2
  let main_cst_2 : FVec F S_ .f32 := constant S_ .f32 0x7F800000#32
  let main_v10 : FVec F S8x1024 .f32 := broadcastInDim S8x1024 ![] bcast_S_S8x1024 main_cst_2
  let main_v11 : IVec S8x1024 1 := cmpf .olt main_v9 main_v10
  let main_c_3 : IVec S_ 1 := constantI S_ 1 1#1
  let main_v12 : IVec S_ 1 := (fun x v => Host.reduce IntOp.andi x v reducesTo_S8x1024_S_d0_1 h_S_) main_v11 main_c_3
  let main_v13 : IVec S_ 1 := andi main_v8 main_v12
  let main_c_4 : IVec S_ 32 := constantI S_ 32 0#32
  let main_v14 : IVec S8x512x4 32 := broadcastInDim S8x512x4 ![] bcast_S_S8x512x4 main_c_4
  let main_v15 : IVec S8x512x4 1 := cmpi .sge main_arg3 main_v14
  let main_c_5 : IVec S_ 1 := constantI S_ 1 1#1
  fn_part1 (F := F) main_arg3 main_v13 main_v15 main_c_5
-- ==== Kernel.lean ====
abbrev S8x2048x512 : Shape := ⟨3, ![8, 2048, 512]⟩
abbrev S8x512x512 : Shape := ⟨3, ![8, 512, 512]⟩
abbrev S8x1024 : Shape := ⟨2, ![8, 1024]⟩
abbrev S8x512x4 : Shape := ⟨3, ![8, 512, 4]⟩
abbrev S8x4x512 : Shape := ⟨3, ![8, 4, 512]⟩
abbrev S8x2048x1024 : Shape := ⟨3, ![8, 2048, 1024]⟩
abbrev S1x512x512 : Shape := ⟨3, ![1, 512, 512]⟩
abbrev S1x4x512 : Shape := ⟨3, ![1, 4, 512]⟩
abbrev S1x1024x512 : Shape := ⟨3, ![1, 1024, 512]⟩
abbrev S1x1024x1024 : Shape := ⟨3, ![1, 1024, 1024]⟩
abbrev S512x512 : Shape := ⟨2, ![512, 512]⟩
abbrev S4x512 : Shape := ⟨2, ![4, 512]⟩
abbrev S1024x512 : Shape := ⟨2, ![1024, 512]⟩
abbrev S1x512 : Shape := ⟨2, ![1, 512]⟩
abbrev S512 : Shape := ⟨1, ![512]⟩
abbrev S1024 : Shape := ⟨1, ![1024]⟩
abbrev S1024x1 : Shape := ⟨2, ![1024, 1]⟩

abbrev nBuf : Space → Nat
  | .hbm => 6
  | .vmem => 8
  | .smem => 0
  | _ => 0

abbrev bufTy : (tb : Table) → Fin (tcTables nBuf tb) → BufTy
  | .hbm, ⟨0, _⟩ => ⟨S8x2048x512, .f32⟩
  | .hbm, ⟨1, _⟩ => ⟨S8x512x512, .f32⟩
  | .hbm, ⟨2, _⟩ => ⟨S8x1024, .f32⟩
  | .hbm, ⟨3, _⟩ => ⟨S8x512x4, .i32⟩
  | .hbm, ⟨4, _⟩ => ⟨S8x4x512, .i32⟩
  | .hbm, ⟨5, _⟩ => ⟨S8x2048x1024, .f32⟩
  | .local _ .vmem, ⟨0, _⟩ => ⟨S1x512x512, .f32⟩
  | .local _ .vmem, ⟨1, _⟩ => ⟨S1x512x512, .f32⟩
  | .local _ .vmem, ⟨2, _⟩ => ⟨S1x4x512, .i32⟩
  | .local _ .vmem, ⟨3, _⟩ => ⟨S1x4x512, .i32⟩
  | .local _ .vmem, ⟨4, _⟩ => ⟨S1x1024x512, .f32⟩
  | .local _ .vmem, ⟨5, _⟩ => ⟨S1x1024x512, .f32⟩
  | .local _ .vmem, ⟨6, _⟩ => ⟨S1x1024x1024, .f32⟩
  | .local _ .vmem, ⟨7, _⟩ => ⟨S1x1024x1024, .f32⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S8x512x4_S8x4x512_0_2_1 : S8x512x4.Transposes [0, 2, 1] S8x4x512
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  bitsLt_bf16_f32 : FTy.bits .bf16 < FTy.bits .f32
  inb_S1x4x512_S1x4x512_0_0_0 : ∀ a, (![0, 0, 0] : Fin 3 → Nat) a + S1x4x512.size a ≤ S1x4x512.size a
  h_S1x4x512 : 0 < S1x4x512.numel
  shapeCasts_S1x4x512_S4x512 : S1x4x512.ShapeCasts S4x512
  iota_S1024x512_d0_w32 : S1024x512.Iotas .tc 32 [0]
  slices_S4x512_o0_0_S1x512 : S4x512.Slices ![0, 0] S1x512
  shapeCasts_S1x512_S512 : S1x512.ShapeCasts S512
  shapeCasts_S512_S1x512 : S512.ShapeCasts S1x512
  broadcasts_S1x512_S1024x512 : S1x512.Broadcasts S1024x512
  natLt_1_32 : 1 < 32
  slices_S4x512_o1_0_S1x512 : S4x512.Slices ![1, 0] S1x512
  slices_S4x512_o2_0_S1x512 : S4x512.Slices ![2, 0] S1x512
  slices_S4x512_o3_0_S1x512 : S4x512.Slices ![3, 0] S1x512
  reduces_S1024x512_S1024 : S1024x512.Reduces [1] S1024
  shapeCasts_S1024_S1024x1 : S1024.ShapeCasts S1024x1
  broadcasts_S1024x1_S1024x512 : S1024x1.Broadcasts S1024x512
  inb_S1x1024x1024_S1x1024x512_0_0_0 : ∀ a, (![0, 0, 0] : Fin 3 → Nat) a + S1x1024x512.size a ≤ S1x1024x1024.size a
  h_S1x1024x512 : 0 < S1x1024x512.numel
  shapeCasts_S1x1024x512_S1024x512 : S1x1024x512.ShapeCasts S1024x512
  shapeCasts_S1024x512_S1x1024x512 : S1024x512.ShapeCasts S1x1024x512
  inb_S1x1024x512_S1x1024x512_0_0_0 : ∀ a, (![0, 0, 0] : Fin 3 → Nat) a + S1x1024x512.size a ≤ S1x1024x512.size a
  inb_S1x1024x1024_S1x1024x512_0_0_512 : ∀ a, (![0, 0, 512] : Fin 3 → Nat) a + S1x1024x512.size a ≤ S1x1024x1024.size a
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S8x512x512.size a
  hwx0_0 : ∀ i : grid0.Coords, EltTy.bits .f32 = 32 ∨ (Rect.block (s := S8x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x512.size a ≤ S8x4x512.size a
  hwx0_1 : ∀ i : grid0.Coords, EltTy.bits .i32 = 32 ∨ (Rect.block (s := S8x4x512) S1x4x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x2048x512.size a
  hwx0_2 : ∀ i : grid0.Coords, EltTy.bits .f32 = 32 ∨ (Rect.block (s := S8x2048x512) S1x1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x2048x1024.size a
  hwx0_3 : ∀ i : grid0.Coords, EltTy.bits .f32 = 32 ∨ (Rect.block (s := S8x2048x1024) S1x1024x1024.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg1) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S8x512x512 : Shape := ⟨3, ![8, 512, 512]⟩
abbrev S8x1024 : Shape := ⟨2, ![8, 1024]⟩
abbrev S8x512x4 : Shape := ⟨3, ![8, 512, 4]⟩
abbrev S8 : Shape := ⟨1, ![8]⟩
abbrev S8x1x1 : Shape := ⟨3, ![8, 1, 1]⟩
abbrev S_ : Shape := ⟨0, ![]⟩
abbrev S16384 : Shape := ⟨1, ![16384]⟩
abbrev S4096x512 : Shape := ⟨2, ![4096, 512]⟩
abbrev S4096x4x512 : Shape := ⟨3, ![4096, 4, 512]⟩
abbrev S16384x512 : Shape := ⟨2, ![16384, 512]⟩
abbrev S16384x1 : Shape := ⟨2, ![16384, 1]⟩
abbrev S8x2048x1024 : Shape := ⟨3, ![8, 2048, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x512x512, .f32⟩
  | .hbm, ⟨2, _⟩ => ⟨S8x1024, .f32⟩
  | .hbm, ⟨3, _⟩ => ⟨S8x512x4, .i32⟩
  | .hbm, ⟨4, _⟩ => ⟨S8, .i32⟩
  | .hbm, ⟨5, _⟩ => ⟨S8x1x1, .i32⟩
  | .hbm, ⟨6, _⟩ => ⟨S_, .i32⟩
  | .hbm, ⟨7, _⟩ => ⟨S8x1x1, .i32⟩
  | .hbm, ⟨8, _⟩ => ⟨S8x1x1, .i32⟩
  | .hbm, ⟨9, _⟩ => ⟨S8x512x4, .i32⟩
  | .hbm, ⟨10, _⟩ => ⟨S8x512x4, .i32⟩
  | .hbm, ⟨11, _⟩ => ⟨S16384, .i32⟩
  | .hbm, ⟨12, _⟩ => ⟨S4096x512, .f32⟩
  | .hbm, ⟨13, _⟩ => ⟨S4096x4x512, .f32⟩
  | .hbm, ⟨14, _⟩ => ⟨S16384x512, .f32⟩
  | .hbm, ⟨15, _⟩ => ⟨S_, .f32⟩
  | .hbm, ⟨16, _⟩ => ⟨S16384x512, .f32⟩
  | .hbm, ⟨17, _⟩ => ⟨S_, .i32⟩
  | .hbm, ⟨18, _⟩ => ⟨S16384, .i32⟩
  | .hbm, ⟨19, _⟩ => ⟨S16384, .i1⟩
  | .hbm, ⟨20, _⟩ => ⟨S_, .i32⟩
  | .hbm, ⟨21, _⟩ => ⟨S16384, .i32⟩
  | .hbm, ⟨22, _⟩ => ⟨S16384, .i32⟩
  | .hbm, ⟨23, _⟩ => ⟨S16384, .i32⟩
  | .hbm, ⟨24, _⟩ => ⟨S16384x1, .i32⟩
  | .hbm, ⟨25, _⟩ => ⟨S16384x512, .f32⟩
  | .hbm, ⟨26, _⟩ => ⟨S_, .f32⟩
  | .hbm, ⟨27, _⟩ => ⟨S16384, .f32⟩
  | .hbm, ⟨28, _⟩ => ⟨S_, .i32⟩
  | .hbm, ⟨29, _⟩ => ⟨S16384, .i32⟩
  | .hbm, ⟨30, _⟩ => ⟨S16384, .i1⟩
  | .hbm, ⟨31, _⟩ => ⟨S_, .i32⟩
  | .hbm, ⟨32, _⟩ => ⟨S16384, .i32⟩
  | .hbm, ⟨33, _⟩ => ⟨S16384, .i32⟩
  | .hbm, ⟨34, _⟩ => ⟨S16384, .i32⟩
  | .hbm, ⟨35, _⟩ => ⟨S16384x1, .i32⟩
  | .hbm, ⟨36, _⟩ => ⟨S_, .f32⟩
  | .hbm, ⟨37, _⟩ => ⟨S16384, .f32⟩
  | .hbm, ⟨38, _⟩ => ⟨S16384, .f32⟩
  | .hbm, ⟨39, _⟩ => ⟨S_, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384, .f32⟩
  | .hbm, ⟨44, _⟩ => ⟨S16384, .f32⟩
  | .hbm, ⟨45, _⟩ => ⟨S16384x1, .f32⟩
  | .hbm, ⟨46, _⟩ => ⟨S16384x512, .f32⟩
  | .hbm, ⟨47, _⟩ => ⟨S16384x512, .f32⟩
  | .hbm, ⟨48, _⟩ => ⟨S8x2048x512, .f32⟩
  | .hbm, ⟨49, _⟩ => ⟨S8x2048x1024, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_v12 : Ref sig .tc := ⟨.hbm, 19, rfl⟩
abbrev main_c_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_c_3 : Ref sig .tc := ⟨.hbm, 28, rfl⟩
abbrev main_v19 : Ref sig .tc := ⟨.hbm, 29, rfl⟩
abbrev main_v20 : Ref sig .tc := ⟨.hbm, 30, rfl⟩
abbrev main_c_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]

class Facts₀ : Prop where
  bcast_S8_S8x1x1_0 : S8.BroadcastsInDim S8x1x1 (![0] : Fin 1 → Fin S8x1x1.rank)
  bcast_S_S8x1x1 : S_.BroadcastsInDim S8x1x1 (![] : Fin 0 → Fin S8x1x1.rank)
  bcast_S8x1x1_S8x512x4_0_1_2 : S8x1x1.BroadcastsInDim S8x512x4 (![0, 1, 2] : Fin 3 → Fin S8x512x4.rank)
  shapeCasts_S8x512x4_S16384 : S8x512x4.ShapeCasts S16384
  shapeCasts_S8x512x512_S4096x512 : S8x512x512.ShapeCasts S4096x512
  bcast_S4096x512_S4096x4x512_0_2 : S4096x512.BroadcastsInDim S4096x4x512 (![0, 2] : Fin 2 → Fin S4096x4x512.rank)
  shapeCasts_S4096x4x512_S16384x512 : S4096x4x512.ShapeCasts S16384x512
  bcast_S_S16384x512 : S_.BroadcastsInDim S16384x512 (![] : Fin 0 → Fin S16384x512.rank)
  bcast_S_S16384 : S_.BroadcastsInDim S16384 (![] : Fin 0 → Fin S16384.rank)
  bcast_S16384_S16384x1_0 : S16384.BroadcastsInDim S16384x1 (![0] : Fin 1 → Fin S16384x1.rank)
  bcast_S16384x1_S16384x512_0_1 : S16384x1.BroadcastsInDim S16384x512 (![0, 1] : Fin 2 → Fin S16384x512.rank)
  shapeCasts_S16384x512_S8x2048x512 : S16384x512.ShapeCasts S8x2048x512
  concatenates_S8x2048x512_S8x2048x512_S8x2048x1024_d2 : Shape.Concatenates [S8x2048x512, S8x2048x512] S8x2048x1024 2
  scatter_S16384x512_S16384x1_S16384x512_1_0_0_1_wf : ScatterDims.WF S16384x512 S16384x1 S16384x512 [1] [0] [0] 1
  scatter_S16384_S16384x1_S16384_n_0_0_1_wf : ScatterDims.WF S16384 S16384x1 S16384 [] [0] [0] 1

variable [Facts₀]

def scatter_S16384x512_S16384x1_S16384x512_1_0_0_1 : ScatterDims S16384x512 S16384x1 S16384x512 where
  updateWindowDims := [1]
  insertedWindowDims := [0]
  scatterDimsToOperandDims := [0]
  indexVectorDim := 1
  wf := scatter_S16384x512_S16384x1_S16384x512_1_0_0_1_wf
def scatter_S16384_S16384x1_S16384_n_0_0_1 : ScatterDims S16384 S16384x1 S16384 where
  updateWindowDims := []
  insertedWindowDims := [0]
  scatterDimsToOperandDims := [0]
  indexVectorDim := 1
  wf := scatter_S16384_S16384x1_S16384_n_0_0_1_wf

class Facts : Prop extends Facts₀ where

variable [Facts]
-- ==== Proof.KernelRow.lean ====
/-
  The kernel body's two stored values read at an index, at the ideal values.
-/
import proofs.«411385_j3925600108956_3_alg».proof.Proof.Gen.KernelIdeal.Skeleton
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.KernelIdeal.RowValue

open Cert.KernelIdeal Cert.KernelIdeal.Gen Idealize.ShloMosaic Idealize.ShloMosaic.ValueIdx

/-! ### The graph block and the index block's rows -/

/-- The graph block's entry `(n, j)`: the shape cast drops the leading unit axis and the format change is the identity. -/
theorem pay3_apply (x0 : Vec Ideal S1x512x512 .f32) (n : Fin 512) (j : Fin 512) :
    k0_pay3 (F := Ideal) x0 (ix2 n j) = x0 (ix3 (0 : Fin 1) n j) := by
  unfold k0_pay3
  exact shapeCast_1ab_ab_apply x0 _ n j

/-- One slot's row of the index block, spread down the rows. -/
theorem slotRow_apply (x1 : Vec Ideal S1x4x512 .i32) (o : Nat) (h : S4x512.Slices ![o, 0] S1x512) (k : Fin 4) (hk : k.val = o)
    (h1 : S1x4x512.ShapeCasts S4x512) (h2 : S1x512.ShapeCasts S512) (h3 : S512.ShapeCasts S1x512) (h4 : S1x512.Broadcasts S1024x512)
    (p : Fin 1024) (n : Fin 512) :
    broadcastTo S1024x512 (shapeCast S1x512 (shapeCast S512 (extractStridedSlice S1x512 ![o, 0] (shapeCast S4x512 x1 h1) h) h2) h3) h4 (ix2 p n)
      = x1 (ix3 (0 : Fin 1) k n) := by
  refine (broadcastTo_1b_ab_apply _ h4 p n).trans ?_
  refine (shapeCast_a_1a_apply _ h3 (0 : Fin 1) n).trans ?_
  refine (shapeCast_1a_a_apply _ h2 n).trans ?_
  refine (slice2_axis0_apply o _ h (0 : Fin 1) n k (by rw [hk]; rfl)).trans ?_
  exact shapeCast_1ab_ab_apply x1 h1 k n

/-- The row number's word: the lane's row plus the block's first row. -/
theorem rowWord (p t : Nat) :
    IntOp.addi (BitVec.ofNat 32 p) (Scalar.muli (BitVec.ofNat 32 t) 1024#32) = BitVec.ofNat 32 (t * 1024 + p) := by
  show BitVec.ofNat 32 p + BitVec.ofNat 32 t * BitVec.ofNat 32 1024 = _
  rw [← BitVec.ofNat_mul, ← BitVec.ofNat_add, Nat.add_comm]

/-- A comparison's bit, widened and converted, is the indicator of the equality. -/
theorem hitValue (u v : BitVec 32) :
    FloatOps.sitofp (F := Ideal) .f32 ((IntOp.cmpi .eq u v).setWidth 32) = if v = u then (1 : EReal) else 0 := by
  by_cases h : v = u
  · subst h
    rw [if_pos rfl]
    have e : (IntOp.cmpi .eq v v).setWidth 32 = 1#32 := by simp [IntOp.cmpi]
    rw [e]
    show (((1#32 : BitVec 32).toInt : ℝ) : EReal) = 1
    have : (1#32 : BitVec 32).toInt = 1 := by decide
    rw [this]; simp
  · rw [if_neg h]
    have e : (IntOp.cmpi .eq u v).setWidth 32 = 0#32 := by
      have : (u == v) = false := by simpa using fun h' => h h'.symm
      simp [IntOp.cmpi, this]
    rw [e]
    show (((0#32 : BitVec 32).toInt : ℝ) : EReal) = 0
    have : (0#32 : BitVec 32).toInt = 0 := by decide
    rw [this]; simp

/-- Slot `k`'s match term at row `p`, graph row `n`: `1` when the slot's index word is the row number's word, else `0`. -/
theorem slotHit_apply (i : grid0.Coords) (x1 : Vec Ideal S1x4x512 .i32) (o : Nat) (h : S4x512.Slices ![o, 0] S1x512)
    (k : Fin 4) (hk : k.val = o) (p : Fin 1024) (n : Fin 512) :
    (truncf .bf16 (sitofp (F := Ideal) .f32 (extui 32 (cmpi .eq
        (addi (iota .tc S1024x512 32 [0] Facts₀.iota_S1024x512_d0_w32)
          (broadcast S1024x512 (Scalar.muli (BitVec.ofNat 32 (i 1).val) 1024#32)))
        (broadcastTo S1024x512 (shapeCast S1x512 (shapeCast S512 (extractStridedSlice S1x512 ![o, 0]
          (shapeCast S4x512 x1 Facts₀.shapeCasts_S1x4x512_S4x512) h) Facts₀.shapeCasts_S1x512_S512) Facts₀.shapeCasts_S512_S1x512)
          Facts₀.broadcasts_S1x512_S1024x512)) Facts₀.natLt_1_32)) Facts₀.bitsLt_bf16_f32 : FVec Ideal S1024x512 .bf16) (ix2 p n)
      = if x1 (ix3 (0 : Fin 1) k n) = BitVec.ofNat 32 ((i 1).val * 1024 + p.val) then (1 : EReal) else 0 := by
  show FloatOps.sitofp (F := Ideal) .f32 ((IntOp.cmpi .eq
      (IntOp.addi (iota .tc S1024x512 32 [0] Facts₀.iota_S1024x512_d0_w32 (ix2 p n)) (Scalar.muli (BitVec.ofNat 32 (i 1).val) 1024#32))
      (broadcastTo S1024x512 _ Facts₀.broadcasts_S1x512_S1024x512 (ix2 p n))).setWidth 32) = _
  rw [iota_single_apply, slotRow_apply x1 o h k hk]
  show FloatOps.sitofp (F := Ideal) .f32 ((IntOp.cmpi .eq (IntOp.addi (BitVec.ofNat 32 p.val) _) _).setWidth 32) = _
  rw [rowWord, hitValue]

/-- The match matrix at `(p, n)`: the number of slots of graph row `n` whose index word is the row number's word. -/
theorem pay4_apply (i : grid0.Coords) (x1 : Vec Ideal S1x4x512 .i32) (p : Fin 1024) (n : Fin 512) :
    k0_pay4 (F := Ideal) i x1 (ix2 p n)
      = ∑ k : Fin 4, if x1 (ix3 (0 : Fin 1) k n) = BitVec.ofNat 32 ((i 1).val * 1024 + p.val) then (1 : EReal) else 0 := by
  rw [Fin.sum_univ_four, ← slotHit_apply i x1 0 Facts₀.slices_S4x512_o0_0_S1x512 0 rfl p n,
    ← slotHit_apply i x1 1 Facts₀.slices_S4x512_o1_0_S1x512 1 rfl p n,
    ← slotHit_apply i x1 2 Facts₀.slices_S4x512_o2_0_S1x512 2 rfl p n,
    ← slotHit_apply i x1 3 Facts₀.slices_S4x512_o3_0_S1x512 3 rfl p n]
  unfold k0_pay4
  simp only [addf_apply]
  rw [broadcast_apply]
  show Ideal.ofBits .bf16 0x0000#16 + _ + _ + _ + _ = _
  rw [Ideal.ofBits_zero_bf16, zero_add]

/-! ### The product's operand indices, axis by axis -/

theorem lhs_dot_0 (j : S1024x512.Idx) (k : dot_S1024x512_S512x512_S1024x512_1_0_0_1_n_n.contr.Idx) :
    (dot_S1024x512_S512x512_S1024x512_1_0_0_1_n_n.lhsIdx j k 0 : ℕ) = j 0 := by
  simp [DotDims.lhsIdx, dot_S1024x512_S512x512_S1024x512_1_0_0_1_n_n]; rfl
theorem lhs_dot_1 (j : S1024x512.Idx) (k : dot_S1024x512_S512x512_S1024x512_1_0_0_1_n_n.contr.Idx) :
    (dot_S1024x512_S512x512_S1024x512_1_0_0_1_n_n.lhsIdx j k 1 : ℕ) = k ⟨0, by decide⟩ :=
  dot_S1024x512_S512x512_S1024x512_1_0_0_1_n_n.lhsIdx_val_of_single rfl j k
theorem rhs_dot_0 (j : S1024x512.Idx) (k : dot_S1024x512_S512x512_S1024x512_1_0_0_1_n_n.contr.Idx) :
    (dot_S1024x512_S512x512_S1024x512_1_0_0_1_n_n.rhsIdx j k 0 : ℕ) = k ⟨0, by decide⟩ :=
  dot_S1024x512_S512x512_S1024x512_1_0_0_1_n_n.rhsIdx_val_of_single rfl j k
theorem rhs_dot_1 (j : S1024x512.Idx) (k : dot_S1024x512_S512x512_S1024x512_1_0_0_1_n_n.contr.Idx) :
    (dot_S1024x512_S512x512_S1024x512_1_0_0_1_n_n.rhsIdx j k 1 : ℕ) = j 1 := by
  simp [DotDims.rhsIdx, dot_S1024x512_S512x512_S1024x512_1_0_0_1_n_n]; rfl

/-- The product into the zero accumulator, at `(p, j)`: the sum over the contracted coordinate of the entries' products. -/
theorem matmul_zero_apply (A : FVec Ideal S1024x512 .bf16) (B : FVec Ideal S512x512 .bf16) (p : Fin 1024) (j : Fin 512) :
    matmul dot_S1024x512_S512x512_S1024x512_1_0_0_1_n_n none A B (constant (F := Ideal) S1024x512 .f32 0x00000000#32) (ix2 p j)
      = ∑ c : Fin 512, A (ix2 p c) * B (ix2 c j) := by
  show FloatOps.matmul dot_S1024x512_S512x512_S1024x512_1_0_0_1_n_n none A B (constant S1024x512 .f32 0x00000000#32) (ix2 p j) = _
  rw [Ideal.matmul_constant_zero_apply,
    ← Equiv.sum_comp (contrEquiv1 dot_S1024x512_S512x512_S1024x512_1_0_0_1_n_n 512 rfl rfl).symm]
  refine Finset.sum_congr rfl fun c _ => ?_
  have hc := contrEquiv1_symm_val dot_S1024x512_S512x512_S1024x512_1_0_0_1_n_n 512 rfl rfl c
  have hl : dot_S1024x512_S512x512_S1024x512_1_0_0_1_n_n.lhsIdx (ix2 p j)
      ((contrEquiv1 dot_S1024x512_S512x512_S1024x512_1_0_0_1_n_n 512 rfl rfl).symm c) = ix2 p c := by
    funext ax; apply Fin.ext
    match ax with
    | ⟨0, _⟩ => exact lhs_dot_0 _ _
    | ⟨1, _⟩ => exact (lhs_dot_1 _ _).trans hc
  have hr : dot_S1024x512_S512x512_S1024x512_1_0_0_1_n_n.rhsIdx (ix2 p j)
      ((contrEquiv1 dot_S1024x512_S512x512_S1024x512_1_0_0_1_n_n 512 rfl rfl).symm c) = ix2 c j := by
    funext ax; apply Fin.ext
    match ax with
    | ⟨0, _⟩ => exact (rhs_dot_0 _ _).trans hc
    | ⟨1, _⟩ => exact rhs_dot_1 _ _
  rw [hl, hr]

/-! ### The two column forms of a kept unit axis -/

/-- An `[a]` array cast to `[a, 1]` reads, at `(i, u)`, the operand at `i`. -/
theorem shapeCast_a_a1_apply {a : ℕ} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} {α : Type} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ### Indicators on the extended reals -/

/-- An indicator is nonnegative. -/
theorem ind_nonneg (c : Prop) [Decidable c] : (0 : EReal) ≤ if c then 1 else 0 := by
  split
  · exact zero_le_one
  · exact le_rfl

/-- An indicator times a value is the gated value. -/
theorem ind_mul (c : Prop) [Decidable c] (g : EReal) : (if c then (1 : EReal) else 0) * g = if c then g else 0 := by
  split
  · exact one_mul g
  · exact zero_mul g

/-- A sum of four indicators times a value is the sum of the four gated values: the partial sums are nonnegative. -/
theorem ind4_mul (c : Fin 4 → Prop) [∀ k, Decidable (c k)] (g : EReal) :
    (∑ k : Fin 4, if c k then (1 : EReal) else 0) * g = ∑ k : Fin 4, if c k then g else 0 := by
  rw [Fin.sum_univ_four, Fin.sum_univ_four,
    EReal.right_distrib_of_nonneg (add_nonneg (add_nonneg (ind_nonneg _) (ind_nonneg _)) (ind_nonneg _)) (ind_nonneg _),
    EReal.right_distrib_of_nonneg (add_nonneg (ind_nonneg _) (ind_nonneg _)) (ind_nonneg _),
    EReal.right_distrib_of_nonneg (ind_nonneg _) (ind_nonneg _),
    ind_mul, ind_mul, ind_mul, ind_mul]

/-! ### The counts and the stored value -/

/-- The match matrix's row sums at row `p`: the number of (graph row, slot) pairs whose index word is the row number's word. -/
theorem pay5_apply (i : grid0.Coords) (x1 : Vec Ideal S1x4x512 .i32) (p : Fin 1024) (u : Fin 1) :
    k0_pay5 (F := Ideal) i x1 (ix2 p u)
      = ∑ n : Fin 512, ∑ k : Fin 4,
          if x1 (ix3 (0 : Fin 1) k n) = BitVec.ofNat 32 ((i 1).val * 1024 + p.val) then (1 : EReal) else 0 := by
  unfold k0_pay5
  refine (shapeCast_a_a1_apply _ Facts₀.shapeCasts_S1024_S1024x1 p u).trans ?_
  refine (Ideal.multiReduction_add_single _ 0x00000000#32 Facts₀.reduces_S1024x512_S1024 (.inl rfl) rfl (ix1 p)).trans ?_
  show ∑ n : Fin 512, _ = _
  refine Finset.sum_congr rfl fun n _ => ?_
  rw [extf_apply]
  have e : Facts₀.reduces_S1024x512_S1024.lift (ix1 p) n = ix2 p n := by
    funext a; match a with | ⟨0, _⟩ => rfl | ⟨1, _⟩ => rfl
  rw [e, pay4_apply]

/-- Row `p`, column `j` of the first stored value at grid point `i`: with `s = 1024 · i₁ + p` the row number, the sum over
    the graph rows `n` and slots `k` whose index word is `s` of the graph block's entry `(n, j)`, plus `ε`, divided by
    the larger of the number of such pairs and `1`. -/
theorem pay1_apply (i : grid0.Coords) (x0 : Vec Ideal S1x512x512 .f32) (x1 : Vec Ideal S1x4x512 .i32)
    (p : Fin 1024) (j : Fin 512) :
    k0_pay1 (F := Ideal) (k0_pay3 x0) (k0_pay4 i x1) (k0_pay5 i x1) (ix3 (0 : Fin 1) p j)
      = Ideal.div
          ((∑ n : Fin 512, ∑ k : Fin 4,
              if x1 (ix3 (0 : Fin 1) k n) = BitVec.ofNat 32 ((i 1).val * 1024 + p.val) then x0 (ix3 (0 : Fin 1) n j) else 0)
            + Ideal.ofBits .f32 0x322BCC77#32)
          (max (∑ n : Fin 512, ∑ k : Fin 4,
              if x1 (ix3 (0 : Fin 1) k n) = BitVec.ofNat 32 ((i 1).val * 1024 + p.val) then (1 : EReal) else 0)
            (Ideal.ofBits .f32 0x3F800000#32)) := by
  unfold k0_pay1
  refine (shapeCast_ab_1ab_apply _ Facts₀.shapeCasts_S1024x512_S1x1024x512 (0 : Fin 1) p j).trans ?_
  show Ideal.div
      (matmul dot_S1024x512_S512x512_S1024x512_1_0_0_1_n_n none (k0_pay4 (F := Ideal) i x1) (k0_pay3 (F := Ideal) x0)
          (constant (F := Ideal) S1024x512 .f32 0x00000000#32) (ix2 p j)
        + Ideal.ofBits .f32 0x322BCC77#32)
      (broadcastTo S1024x512
        (maximumf (k0_pay5 (F := Ideal) i x1) (broadcast S1024x1 (Scalar.ofBits (F := Ideal) .f32 0x3F800000#32)))
        Facts₀.broadcasts_S1024x1_S1024x512 (ix2 p j)) = _
  rw [matmul_zero_apply, broadcastTo_a1_ab_apply, maximumf_apply, broadcast_apply, pay5_apply]
  refine congrArg (fun s => Ideal.div (s + Ideal.ofBits .f32 0x322BCC77#32) _) ?_
  refine Finset.sum_congr rfl fun n _ => ?_
  rw [pay4_apply, pay3_apply]
  exact ind4_mul (fun k => x1 (ix3 (0 : Fin 1) k n) = BitVec.ofNat 32 ((i 1).val * 1024 + p.val)) (x0 (ix3 (0 : Fin 1) n j))

/-- The second stored value is the sequence block itself. -/
theorem pay2_apply (x2 : Vec Ideal S1x1024x512 .f32) (p : Fin 1024) (j : Fin 512) :
    k0_pay2 (F := Ideal) x2 (ix3 (0 : Fin 1) p j) = x2 (ix3 (0 : Fin 1) p j) := by
  unfold k0_pay2
  rw [shapeCast_shapeCast]

end Cert.KernelIdeal.RowValue

end
-- ==== Proof.Spec.lean ====
/-
  The function both programs compute, as ONE function of the argument arrays.

  For a batch `b`, a destination row `s` and a feature column `j`: the graph rows `n` are added into row `s`
  once for every slot `k` whose index word `idx[b, n, k]` IS the row number `s` (a 32-bit word equal to
  `s`'s), `segSum`; the number of such pairs `(n, k)` is `segCnt`; the mean-like value is
  `(segSum + ε) / max (segCnt, 1)`, with `ε` and `1` the two programs' shared float words, never evaluated. The
  result array `[8, 2048, 1024]` holds that value in its columns `0 … 511` and the sequence array's entry
  `seq[b, s, j − 512]` in its columns `512 … 1023`.
-/
import Idealize.ShloMosaic.Lib.ValueIdx
import Idealize.ShloMosaic.PureOps.Ideal

noncomputable section

open scoped BigOperators

namespace Cert.SegMean

open Idealize.ShloMosaic Idealize.ShloMosaic.ValueIdx

/-- The sum, over the graph rows `n` and slots `k` of batch `b` whose index word is the row number `s`, of the
    graph entry `go[b, n, j]`. -/
def segSum (go : (⟨3, ![8, 512, 512]⟩ : Shape).Idx → EReal) (idx : (⟨3, ![8, 512, 4]⟩ : Shape).Idx → BitVec 32)
    (b : Fin 8) (s : ℕ) (j : Fin 512) : EReal :=
  ∑ n : Fin 512, ∑ k : Fin 4, if idx (ix3 b n k) = BitVec.ofNat 32 s then go (ix3 b n j) else 0

/-- The number of pairs `(n, k)` of batch `b` whose index word is the row number `s`, as an extended real. -/
def segCnt (idx : (⟨3, ![8, 512, 4]⟩ : Shape).Idx → BitVec 32) (b : Fin 8) (s : ℕ) : EReal :=
  ∑ n : Fin 512, ∑ k : Fin 4, if idx (ix3 b n k) = BitVec.ofNat 32 s then (1 : EReal) else 0

/-- `(segSum + ε) / max (segCnt, 1)`: the two float words are the programs' own. -/
def meanAt (go : (⟨3, ![8, 512, 512]⟩ : Shape).Idx → EReal) (idx : (⟨3, ![8, 512, 4]⟩ : Shape).Idx → BitVec 32)
    (b : Fin 8) (s : ℕ) (j : Fin 512) : EReal :=
  Ideal.div (segSum go idx b s j + Ideal.ofBits .f32 0x322BCC77#32)
    (max (segCnt idx b s) (Ideal.ofBits .f32 0x3F800000#32))

/-- The whole result: columns `0 … 511` the mean-like value, columns `512 … 1023` the sequence array. -/
def G (seq : (⟨3, ![8, 2048, 512]⟩ : Shape).Idx → EReal) (go : (⟨3, ![8, 512, 512]⟩ : Shape).Idx → EReal)
    (idx : (⟨3, ![8, 512, 4]⟩ : Shape).Idx → BitVec 32) : (⟨3, ![8, 2048, 1024]⟩ : Shape).Idx → EReal := fun i =>
  if h : (i 2).val < 512 then meanAt go idx (i 0) (i 1).val ⟨(i 2).val, h⟩
  else seq (ix3 (i 0) (i 1) ⟨(i 2).val - 512, by
    have h2 : (i 2).val < 1024 := (i 2).isLt
    show (i 2).val - 512 < 512; omega⟩)

end Cert.SegMean

end
-- ==== Proof.KernelArray.lean ====
/-
  The kernel's result array as one function of the argument arrays.

  At grid point `t = (b, q)` the pipeline hands the body batch `b`'s whole graph block `[512, 512]`, batch `b`'s
  transposed index block `[4, 512]` (slot `k`, graph row `n`), and rows `1024 q … 1024 q + 1023` of batch `b`'s
  sequence block; the body fills its `[1024, 1024]` output block by two stores, columns `0 … 511` with the
  mean-like value of row number `s = 1024 q + p` and columns `512 … 1023` with the sequence rows. Block `t` of the
  specification's function is exactly that, and the sixteen blocks tile the array.
-/
import proofs.«411385_j3925600108956_3_alg».proof.Proof.KernelIdealValue
import proofs.«411385_j3925600108956_3_alg».proof.Proof.KernelRow
import proofs.«411385_j3925600108956_3_alg».proof.Proof.Spec
import Idealize.ShloMosaic.Lib.StableHlo.Run
import Idealize.ShloMosaic.Lib.Pipeline.Value

set_option maxRecDepth 16384

noncomputable section

open scoped BigOperators

namespace Cert.KernelIdeal.ArrayValue

open Cert.KernelIdeal Cert.KernelIdeal.Gen Cert.KernelIdeal.GenP Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem off_zero3 : (![0, 0, 0] : Fin 3 → Nat) = fun _ => 0 := funext fun a => by fin_cases a <;> rfl

/-- The index array as the region finds it: the host transposes `[8, 512, 4]` to `[8, 4, 512]` first. -/
theorem V_idxT (c : Dev nD) :
    (V m c main_v0 : S8x4x512.Idx → BitVec 32)
      = transpose S8x4x512 [0, 2, 1] (m ((c : Thread nD τ).loc main_arg3)) Facts₀.transposes_S8x512x4_S8x4x512_0_2_1 := by
  dsimp only [V, hostOps0]; after_results

/-- Read at `(b, k, n)` it is the index word `idx[b, n, k]`. -/
theorem V_idxT_apply (c : Dev nD) (b : Fin 8) (k : Fin 4) (n : Fin 512) :
    (V m c main_v0 : S8x4x512.Idx → BitVec 32) (ix3 b k n) = (m ((c : Thread nD τ).loc main_arg3) : S8x512x4.Idx → BitVec 32) (ix3 b n k) := by
  rw [V_idxT]
  exact transpose_apply _ _ _ _ (ix3 b n k) (fun a => by
    match a with
    | ⟨0, _⟩ => rfl
    | ⟨1, _⟩ => rfl
    | ⟨2, _⟩ => rfl)

/-! ## The grid point's batch and row tile, and the printed index maps -/

/-- The batch a grid point works on, and its row tile. -/
def bat (t : Fin cfg0.N) : Fin 8 := ⟨(grid0.coords t 0).val, (grid0.coords t 0).isLt⟩
def tile (t : Fin cfg0.N) : Fin 2 := ⟨(grid0.coords t 1).val, (grid0.coords t 1).isLt⟩

/-- The printed index maps, decided over the sixteen points: the graph and index blocks follow the batch alone, the
    sequence and output blocks the batch and the row tile. -/
theorem idx_facts : ∀ t : Fin cfg0.N,
    win0_0.index t (0 : Fin 3) = (grid0.coords t 0).val ∧ win0_0.index t (1 : Fin 3) = 0 ∧ win0_0.index t (2 : Fin 3) = 0
    ∧ win0_1.index t (0 : Fin 3) = (grid0.coords t 0).val ∧ win0_1.index t (1 : Fin 3) = 0 ∧ win0_1.index t (2 : Fin 3) = 0
    ∧ win0_2.index t (0 : Fin 3) = (grid0.coords t 0).val ∧ win0_2.index t (1 : Fin 3) = (grid0.coords t 1).val ∧ win0_2.index t (2 : Fin 3) = 0
    ∧ win0_3.index t (0 : Fin 3) = (grid0.coords t 0).val ∧ win0_3.index t (1 : Fin 3) = (grid0.coords t 1).val ∧ win0_3.index t (2 : Fin 3) = 0 :=
  (by decide +kernel : ∀ t : Fin grid0.N, _)

/-! ## The input blocks at a point, read off the argument arrays -/

/-- The graph block at point `t` is batch `bat t` of the graph array. -/
theorem go_blk (c : Dev nD) (t : Fin cfg0.N) (n : Fin 512) (j : Fin 512) :
    iblk m c 0 t (ix3 (0 : Fin 1) n j)
      = (m ((c : Thread nD τ).loc main_arg1) : S8x512x512.Idx → EReal) (ix3 (bat t) n j) := by
  obtain ⟨e0, e1, e2, -⟩ := idx_facts t
  show V m c main_arg1 (((cfg0.win 0).blk t).view.emb (ix3 (0 : Fin 1) n j)) = _
  rw [V_main_arg1]
  refine congrArg _ (funext fun a => Fin.ext ?_)
  match a with
  | ⟨0, _⟩ => show win0_0.index t (0 : Fin 3) * 1 + 1 * 0 = (grid0.coords t 0).val; omega
  | ⟨1, _⟩ => show win0_0.index t (1 : Fin 3) * 512 + 1 * n.val = n.val; omega
  | ⟨2, _⟩ => show win0_0.index t (2 : Fin 3) * 512 + 1 * j.val = j.val; omega

/-- The index block at point `t`, slot `k`, graph row `n`, is the index word `idx[bat t, n, k]`. -/
theorem idx_blk (c : Dev nD) (t : Fin cfg0.N) (k : Fin 4) (n : Fin 512) :
    iblk m c 1 t (ix3 (0 : Fin 1) k n)
      = (m ((c : Thread nD τ).loc main_arg3) : S8x512x4.Idx → BitVec 32) (ix3 (bat t) n k) := by
  obtain ⟨-, -, -, e0, e1, e2, -⟩ := idx_facts t
  rw [← V_idxT_apply m c (bat t) k n]
  show V m c main_v0 (((cfg0.win 1).blk t).view.emb (ix3 (0 : Fin 1) k n)) = _
  refine congrArg _ (funext fun a => Fin.ext ?_)
  match a with
  | ⟨0, _⟩ => show win0_1.index t (0 : Fin 3) * 1 + 1 * 0 = (grid0.coords t 0).val; omega
  | ⟨1, _⟩ => show win0_1.index t (1 : Fin 3) * 4 + 1 * k.val = k.val; omega
  | ⟨2, _⟩ => show win0_1.index t (2 : Fin 3) * 512 + 1 * n.val = n.val; omega

/-- The sequence block at point `t` is rows `1024 · tile t + p` of batch `bat t` of the sequence array. -/
theorem seq_blk (c : Dev nD) (t : Fin cfg0.N) (p : Fin 1024) (j : Fin 512) :
    iblk m c 2 t (ix3 (0 : Fin 1) p j)
      = (m ((c : Thread nD τ).loc main_arg0) : S8x2048x512.Idx → EReal)
          (ix3 (bat t) (⟨(tile t).val * 1024 + p.val, by have := (tile t).isLt; have := p.isLt; omega⟩ : Fin 2048) j) := by
  obtain ⟨-, -, -, -, -, -, e0, e1, e2, -⟩ := idx_facts t
  show V m c main_arg0 (((cfg0.win 2).blk t).view.emb (ix3 (0 : Fin 1) p j)) = _
  rw [V_main_arg0]
  refine congrArg _ (funext fun a => Fin.ext ?_)
  match a with
  | ⟨0, _⟩ => show win0_2.index t (0 : Fin 3) * 1 + 1 * 0 = (grid0.coords t 0).val; omega
  | ⟨1, _⟩ => show win0_2.index t (1 : Fin 3) * 1024 + 1 * p.val = (grid0.coords t 1).val * 1024 + p.val; omega
  | ⟨2, _⟩ => show win0_2.index t (2 : Fin 3) * 512 + 1 * j.val = j.val; omega

/-! ## The output block: two stores, columns `0 … 511` and columns `512 … 1023` -/

/-- Row `p`, column `j < 512` of what the body leaves: the first stored value (the earlier store; the later one does
    not reach these columns). -/
theorem out_block_lo (i : grid0.Coords) (x0 : Vec Ideal S1x512x512 .f32) (x1 : Vec Ideal S1x4x512 .i32)
    (x2 : Vec Ideal S1x1024x512 .f32) (p : Fin 1024) (j : Fin 512) :
    out0_3 (F := Ideal) i x0 x1 x2 (ix3 (0 : Fin 1) p (⟨j.val, by have := j.isLt; omega⟩ : Fin 1024))
      = k0_pay1 (F := Ideal) (k0_pay3 x0) (k0_pay4 i x1) (k0_pay5 i x1) (ix3 (0 : Fin 1) p j) := by
  unfold out0_3
  rw [View.ld_unit_zero (S := S1x512x512) off_zero3, View.ld_unit_zero (S := S1x4x512) off_zero3,
    View.ld_unit_zero (S := S1x1024x512) off_zero3]
  rw [View.canon_cons_of_not_mem _ _ (by
    rw [Rect.mem_set_unit]
    intro h
    have h2 := (h (2 : Fin 3)).1
    have hj := j.isLt
    have : (512 : ℕ) ≤ j.val := h2
    omega)]
  have e : (ix3 (0 : Fin 1) p (⟨j.val, by have := j.isLt; omega⟩ : Fin 1024) : S1x1024x1024.Idx)
      = r0_2.emb (ix3 (0 : Fin 1) p j) := funext fun a => Fin.ext (by
    match a with
    | ⟨0, _⟩ => show (0 : ℕ) = 0 + 1 * 0; omega
    | ⟨1, _⟩ => show p.val = 0 + 1 * p.val; omega
    | ⟨2, _⟩ => show j.val = 0 + 1 * j.val; omega)
  rw [e, View.canon_cons_emb]

/-- Row `p`, column `512 + j`: the second stored value (the later store). -/
theorem out_block_hi (i : grid0.Coords) (x0 : Vec Ideal S1x512x512 .f32) (x1 : Vec Ideal S1x4x512 .i32)
    (x2 : Vec Ideal S1x1024x512 .f32) (p : Fin 1024) (j : Fin 512) :
    out0_3 (F := Ideal) i x0 x1 x2 (ix3 (0 : Fin 1) p (⟨j.val + 512, by have := j.isLt; omega⟩ : Fin 1024))
      = k0_pay2 (F := Ideal) x2 (ix3 (0 : Fin 1) p j) := by
  unfold out0_3
  rw [View.ld_unit_zero (S := S1x1024x512) off_zero3]
  have e : (ix3 (0 : Fin 1) p (⟨j.val + 512, by have := j.isLt; omega⟩ : Fin 1024) : S1x1024x1024.Idx)
      = r0_4.emb (ix3 (0 : Fin 1) p j) := funext fun a => Fin.ext (by
    match a with
    | ⟨0, _⟩ => show (0 : ℕ) = 0 + 1 * 0; omega
    | ⟨1, _⟩ => show p.val = 0 + 1 * p.val; omega
    | ⟨2, _⟩ => show j.val + 512 = 512 + 1 * j.val; omega)
  rw [e, View.canon_cons_emb]

/-! ## What a point writes back is its block of the specification's function -/

/-- Where the output block's index `(0, p, cc)` lies in the result array: batch `bat t`, row `1024 · tile t + p`. -/
theorem out_emb (t : Fin cfg0.N) (p : Fin 1024) (cc : Fin 1024) :
    ((cfg0.win 3).blk t).view.emb (ix3 (0 : Fin 1) p cc)
      = (ix3 (bat t) (⟨(tile t).val * 1024 + p.val, by have := (tile t).isLt; have := p.isLt; omega⟩ : Fin 2048) cc : S8x2048x1024.Idx) := by
  obtain ⟨-, -, -, -, -, -, -, -, -, e0, e1, e2⟩ := idx_facts t
  refine funext fun a => Fin.ext ?_
  match a with
  | ⟨0, _⟩ => show win0_3.index t (0 : Fin 3) * 1 + 1 * 0 = (grid0.coords t 0).val; omega
  | ⟨1, _⟩ => show win0_3.index t (1 : Fin 3) * 1024 + 1 * p.val = (grid0.coords t 1).val * 1024 + p.val; omega
  | ⟨2, _⟩ => show win0_3.index t (2 : Fin 3) * 1024 + 1 * cc.val = cc.val; omega

/-- THE PER-POINT EQUATION: the body's output block at point `t` is block `t` of the specification's function of the
    argument arrays. -/
theorem block_eq (c : Dev nD) (t : Fin cfg0.N) (y : S1x1024x1024.Idx) :
    out0_3 (F := Ideal) (grid0.coords t) (iblk m c 0 t) (iblk m c 1 t) (iblk m c 2 t) y
      = Cert.SegMean.G (m ((c : Thread nD τ).loc main_arg0)) (m ((c : Thread nD τ).loc main_arg1))
          (m ((c : Thread nD τ).loc main_arg3)) (((cfg0.win 3).blk t).view.emb y) := by
  obtain ⟨z, p, cc, rfl⟩ : ∃ (z : Fin 1) (p : Fin 1024) (cc : Fin 1024), y = ix3 z p cc := ⟨y 0, y 1, y 2, eq_ix3 y⟩
  obtain rfl : z = 0 := Subsingleton.elim _ _
  rw [out_emb t p cc]
  obtain ⟨cv, hcv⟩ := cc
  unfold Cert.SegMean.G
  by_cases h : cv < 512
  · rw [dif_pos (show ((ix3 (bat t) (⟨(tile t).val * 1024 + p.val, by have := (tile t).isLt; have := p.isLt; omega⟩ : Fin 2048) (⟨cv, hcv⟩ : Fin 1024) : S8x2048x1024.Idx) 2).val < 512 from h)]
    refine (out_block_lo (grid0.coords t) (iblk m c 0 t) (iblk m c 1 t) (iblk m c 2 t) p ⟨cv, h⟩).trans ?_
    refine (RowValue.pay1_apply (grid0.coords t) (iblk m c 0 t) (iblk m c 1 t) p ⟨cv, h⟩).trans ?_
    unfold Cert.SegMean.meanAt Cert.SegMean.segSum Cert.SegMean.segCnt
    simp only [go_blk m c t, idx_blk m c t]
    rfl
  · rw [dif_neg (show ¬ ((ix3 (bat t) (⟨(tile t).val * 1024 + p.val, by have := (tile t).isLt; have := p.isLt; omega⟩ : Fin 2048) (⟨cv, hcv⟩ : Fin 1024) : S8x2048x1024.Idx) 2).val < 512 from h)]
    obtain ⟨j, rfl⟩ : ∃ j : Fin 512, cv = j.val + 512 := ⟨⟨cv - 512, by omega⟩, by show cv = cv - 512 + 512; omega⟩
    refine (out_block_hi (grid0.coords t) (iblk m c 0 t) (iblk m c 1 t) (iblk m c 2 t) p j).trans ?_
    refine (RowValue.pay2_apply (iblk m c 2 t) p j).trans ?_
    rw [seq_blk m c t p j]
    refine congrArg _ (funext fun a => Fin.ext ?_)
    match a with
    | ⟨0, _⟩ => rfl
    | ⟨1, _⟩ => rfl
    | ⟨2, _⟩ => show j.val = j.val + 512 - 512; omega

/-- What point `t` writes back to the result array is block `t` of the specification's function. -/
theorem flushed_eq (c : Dev nD) (t : Fin cfg0.N) :
    (dats m 0 c).flushed 3 t = ((cfg0.win 3).blk t).view.read (Elt Ideal)
      (Cert.SegMean.G (m ((c : Thread nD τ).loc main_arg0)) (m ((c : Thread nD τ).loc main_arg1))
        (m ((c : Thread nD τ).loc main_arg3))) := by
  rw [ValueP.flushed3]
  funext y
  exact block_eq m c t y

/-! ## The sixteen blocks tile the result array -/

/-- An index of the result array lies in point `t`'s block iff each coordinate lies in the block's range on its axis. -/
theorem mem_blk (t : Fin cfg0.N) (i : S8x2048x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v1).slice (win0_3.rect t)).set ↔ _
  rw [View.set_slice_whole, Rect.mem_set_unit]
  exact Iff.rfl

/-- Every (batch, row tile) pair is some point's block index. -/
theorem idx_onto : ∀ (b : Fin 8) (q : Fin 2), ∃ t : Fin cfg0.N, win0_3.index t = ![b.val, q.val, 0] :=
  (by decide +kernel : ∀ (b : Fin 8) (q : Fin 2), ∃ t : Fin grid0.N, win0_3.index t = ![b.val, q.val, 0])

/-- Every index of the result array lies in the block of the point with its batch and its row's tile. -/
theorem cover (i : S8x2048x1024.Idx) :
    ∃ t : Fin cfg0.N, (cfg0.win 3).flush t = true ∧ i ∈ ((cfg0.win 3).blk t).view.set := by
  have h0 : (i 0).val < 8 := (i 0).isLt
  have h1 : (i 1).val < 2048 := (i 1).isLt
  have h2 : (i 2).val < 1024 := (i 2).isLt
  obtain ⟨t, ht⟩ := idx_onto ⟨(i 0).val, h0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE RESULT ARRAY after the run is the specification's function of the argument arrays. -/
theorem final (c : Dev nD) :
    (dats m 0 c).arrAt 3 cfg0.N
      = Cert.SegMean.G (m ((c : Thread nD τ).loc main_arg0)) (m ((c : Thread nD τ).loc main_arg1))
          (m ((c : Thread nD τ).loc main_arg3)) :=
  (dats m 0 c).arrAt_eq_of_cover 3 _ (fun t _ => flushed_eq m c t) cover

/-! ## The run, read -/

/-- Every weakly fair execution of the idealized kernel terminates with the result array at the specification's
    function of the argument arrays, the arguments unchanged. -/
theorem run : θ_run defs (onTc (τ := τ) (main (F := Ideal))) ⟨m, fun _ => 0, ρ⟩ fun r => ∀ c : Dev nD,
      r.2.mem ((c : Thread nD τ).loc main_v1)
        = Cert.SegMean.G (m ((c : Thread nD τ).loc main_arg0)) (m ((c : Thread nD τ).loc main_arg1))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (ValueP.run_blocks m ρ)

end Cert.KernelIdeal.ArrayValue

end
-- ==== Proof.LibRows.lean ====
/-
  General lemmas for ROW indexing by an integer list, as `x[idx]` and `zeros.at[idx].add(u)` lower for a
  rank-2 array and a rank-1 list of row numbers (held as an `[E, 1]` column):

  * a row gather — operand `[N, C]`, start indices `[E, 1]`, result `[E, C]`, the row axis collapsed —
    read at `(e, c)` is the operand at row `idx[e, 0]` (read signed, clamped into `[0, N − 1]`), column `c`;
  * at the ideal values a row scatter-add — operand `[N, C]`, scatter indices `[E, 1]`, updates `[E, C]` —
    read at `(n, c)` is the operand's entry plus the sum, over the list positions `e` whose row number
    `idx[e, 0]` (read signed, not clamped) is `n`, of the updates' entries `(e, c)`.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a row gather: operand `[N, C]`, start indices `[E, 1]`, result `[E, C]`. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, c)`: the operand at row `idx[e, 0]`, read signed and clamped into
    `[0, N − 1]`, column `c`. -/
theorem rowGather_apply {α : Type} {N E C w : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c)
      = x (ix2 (⟨min (idx (ix2 e (0 : Fin 1))).toInt.toNat (N - 1), by omega⟩ : Fin N) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    have hs : (rowGatherDims N E C wf).start (ix2 e c) idx 1 = 0 := by
      unfold GatherDims.start
      rw [dif_neg (show (1 : Fin 2) ∉ (rowGatherDims N E C wf).startIndexMap by simp)]
    rw [hs]
    have hk : (rowGatherDims N E C wf).sKept = [(1 : Fin 2)] := rfl
    unfold GatherDims.offCoord
    rw [dif_pos (show (1 : Fin 2) ∈ (rowGatherDims N E C wf).sKept from by rw [hk]; exact List.mem_singleton.mpr rfl)]
    have hi : List.idxOf (1 : Fin 2) (rowGatherDims N E C wf).sKept = 0 := by rw [hk]; exact List.idxOf_cons_self
    simp only [hi, Nat.zero_add]
    rfl

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- Where the update at `(e, c')` lands: at `(n, c)` exactly when the row number at `e` is `n` and `c' = c`. -/
private theorem rowScatter_resultIdx {N E C w : ℕ}
    (wf : ScatterDims.WF ⟨2, ![N, C]⟩ ⟨2, ![E, 1]⟩ ⟨2, ![E, C]⟩ [1] [0] [0] 1)
    (idx : IVec ⟨2, ![E, 1]⟩ w) (e : Fin E) (c' : Fin C) (n : Fin N) (c : Fin C) :
    (rowScatterDims N E C wf).resultIdx? (ix2 e c') idx = some (ix2 n c)
      ↔ (idx (ix2 e (0 : Fin 1))).toInt = (n.val : ℤ) ∧ c' = c := by
  have hs0 : (rowScatterDims N E C wf).start (ix2 e c') idx (0 : Fin 2) = (idx (ix2 e (0 : Fin 1))).toInt := by
    unfold ScatterDims.start
    rw [dif_pos (show (0 : Fin 2) ∈ (rowScatterDims N E C wf).scatterDimsToOperandDims from List.mem_singleton.mpr rfl)]
    have hsi : (rowScatterDims N E C wf).siIdx (ix2 e c') ⟨List.idxOf (0 : Fin 2) (rowScatterDims N E C wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : (rowScatterDims N E C wf).start (ix2 e c') idx (1 : Fin 2) = 0 := by
    unfold ScatterDims.start
    rw [dif_neg (show (1 : Fin 2) ∉ (rowScatterDims N E C wf).scatterDimsToOperandDims by simp)]
  have hk : (rowScatterDims N E C wf).sKept = [(1 : Fin 2)] := rfl
  have hw0 : (rowScatterDims N E C wf).window (ix2 e c') (0 : Fin 2) = 0 := by
    unfold ScatterDims.window
    rw [dif_neg (show (0 : Fin 2) ∉ (rowScatterDims N E C wf).sKept by rw [hk]; simp)]
  have hw1 : (rowScatterDims N E C wf).window (ix2 e c') (1 : Fin 2) = c'.val := by
    unfold ScatterDims.window
    rw [dif_pos (show (1 : Fin 2) ∈ (rowScatterDims N E C wf).sKept from by rw [hk]; exact List.mem_singleton.mpr rfl)]
    have hi : List.idxOf (1 : Fin 2) (rowScatterDims N E C wf).sKept = 0 := by rw [hk]; exact List.idxOf_cons_self
    simp only [hi]
    rfl
  constructor
  · intro h
    unfold ScatterDims.resultIdx? at h
    split at h
    · rename_i hb
      have h' := Option.some.inj h
      have h0 : ((rowScatterDims N E C wf).start (ix2 e c') idx (0 : Fin 2) + ((rowScatterDims N E C wf).window (ix2 e c') (0 : Fin 2) : ℤ)).toNat = n.val :=
        congrArg (fun f : (⟨2, ![N, C]⟩ : Shape).Idx => (f 0).val) h'
      have h1 : ((rowScatterDims N E C wf).start (ix2 e c') idx (1 : Fin 2) + ((rowScatterDims N E C wf).window (ix2 e c') (1 : Fin 2) : ℤ)).toNat = c.val :=
        congrArg (fun f : (⟨2, ![N, C]⟩ : Shape).Idx => (f 1).val) h'
      have hb0 := (hb 0).1
      have hb1 := (hb 1).1
      rw [hs0, hw0] at h0 hb0
      rw [hs1, hw1] at h1 hb1
      exact ⟨by omega, Fin.ext (by omega)⟩
    · exact absurd h (by simp)
  · rintro ⟨hrow, rfl⟩
    unfold ScatterDims.resultIdx?
    have hb : ∀ a : Fin 2, 0 ≤ (rowScatterDims N E C wf).start (ix2 e c') idx a + ((rowScatterDims N E C wf).window (ix2 e c') a : ℤ)
        ∧ (rowScatterDims N E C wf).start (ix2 e c') idx a + ((rowScatterDims N E C wf).window (ix2 e c') a : ℤ) < ((⟨2, ![N, C]⟩ : Shape).size a : ℤ) := by
      intro a
      match a with
      | ⟨0, _⟩ =>
        show 0 ≤ (rowScatterDims N E C wf).start (ix2 e c') idx (0 : Fin 2) + ((rowScatterDims N E C wf).window (ix2 e c') (0 : Fin 2) : ℤ)
          ∧ (rowScatterDims N E C wf).start (ix2 e c') idx (0 : Fin 2) + ((rowScatterDims N E C wf).window (ix2 e c') (0 : Fin 2) : ℤ) < (N : ℤ)
        rw [hs0, hw0, hrow]
        have := n.isLt
        omega
      | ⟨1, _⟩ =>
        show 0 ≤ (rowScatterDims N E C wf).start (ix2 e c') idx (1 : Fin 2) + ((rowScatterDims N E C wf).window (ix2 e c') (1 : Fin 2) : ℤ)
          ∧ (rowScatterDims N E C wf).start (ix2 e c') idx (1 : Fin 2) + ((rowScatterDims N E C wf).window (ix2 e c') (1 : Fin 2) : ℤ) < (C : ℤ)
        rw [hs1, hw1]
        have := c'.isLt
        omega
    rw [dif_pos hb]
    congr 1
    funext a
    refine Fin.ext ?_
    match a with
    | ⟨0, _⟩ =>
      show ((rowScatterDims N E C wf).start (ix2 e c') idx (0 : Fin 2) + ((rowScatterDims N E C wf).window (ix2 e c') (0 : Fin 2) : ℤ)).toNat = n.val
      rw [hs0, hw0, hrow]
      omega
    | ⟨1, _⟩ =>
      show ((rowScatterDims N E C wf).start (ix2 e c') idx (1 : Fin 2) + ((rowScatterDims N E C wf).window (ix2 e c') (1 : Fin 2) : ℤ)).toNat = c'.val
      rw [hs1, hw1]
      omega

/-- THE ROW SCATTER-ADD READ AT `(n, c)`, at the ideal values: the operand's entry plus the sum of the
    updates' entries `(e, c)` over the positions `e` whose row number is `n`. -/
theorem rowScatterAdd_apply {N E C w : ℕ}
    (wf : ScatterDims.WF ⟨2, ![N, C]⟩ ⟨2, ![E, 1]⟩ ⟨2, ![E, C]⟩ [1] [0] [0] 1)
    (x : FVec Ideal ⟨2, ![N, C]⟩ .f32) (idx : IVec ⟨2, ![E, 1]⟩ w) (upd : FVec Ideal ⟨2, ![E, C]⟩ .f32)
    (n : Fin N) (c : Fin C) :
    Host.scatterAdd (F := Ideal) (rowScatterDims N E C wf) x idx upd (ix2 n c)
      = x (ix2 n c) + ∑ e ∈ Finset.univ.filter (fun e : Fin E => (idx (ix2 e (0 : Fin 1))).toInt = (n.val : ℤ)),
          upd (ix2 e c) := by
  show Ideal.hostScatterAdd (rowScatterDims N E C wf) x idx upd (ix2 n c) = _
  unfold Ideal.hostScatterAdd
  congr 1
  rw [Finset.sum_filter, sum_idx2, Finset.sum_filter]
  refine Finset.sum_congr rfl fun e _ => ?_
  simp only [rowScatter_resultIdx]
  by_cases hrow : (idx (ix2 e (0 : Fin 1))).toInt = (n.val : ℤ)
  · simp only [hrow, true_and, if_true]
    rw [Finset.sum_ite_eq' Finset.univ c (fun c' => upd (ix2 e c'))]
    simp only [Finset.mem_univ, if_true]
  · simp only [hrow, false_and, if_false, Finset.sum_const_zero]

end Idealize.ShloMosaic.ValueIdx

end
-- ==== Proof.LibCounts.lean ====
/-
  General lemmas: a scatter-add into a VECTOR by an integer list (`zeros.at[idx].add(u)` for a rank-1 array, the
  list held as an `[E, 1]` column), read at a position, at the ideal values; and a sum over a flattened triple index
  as a triple sum.
-/
import Idealize.ShloMosaic.Lib.ValueIdx
import Idealize.ShloMosaic.Lib.Pipeline.Value
import Idealize.ShloMosaic.PureOps.Ideal.Laws

noncomputable section

open scoped BigOperators

namespace Idealize.ShloMosaic.ValueIdx

open Idealize.ShloMosaic

/-- The dimension numbers of a scatter into a vector: operand `[N]`, scatter indices `[E, 1]`, updates `[E]`. -/
abbrev vecScatterDims (N E : ℕ)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- A rank-1 index set is its one coordinate range … -/
private def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Where the update at `e` lands: at `n` exactly when the number at `e` is `n`. -/
private theorem vecScatter_resultIdx {N E w : ℕ}
    (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n)
      ↔ (idx (ix2 e (0 : Fin 1))).toInt = (n.val : ℤ) := by
  have hs0 : (vecScatterDims N E wf).start (ix1 e) idx (0 : Fin 1) = (idx (ix2 e (0 : Fin 1))).toInt := by
    unfold ScatterDims.start
    rw [dif_pos (show (0 : Fin 1) ∈ (vecScatterDims N E wf).scatterDimsToOperandDims from List.mem_singleton.mpr rfl)]
    have hsi : (vecScatterDims N E wf).siIdx (ix1 e) ⟨List.idxOf (0 : Fin 1) (vecScatterDims N E wf).scatterDimsToOperandDims,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hk : (vecScatterDims N E wf).sKept = [] := rfl
  have hw0 : (vecScatterDims N E wf).window (ix1 e) (0 : Fin 1) = 0 := by
    unfold ScatterDims.window
    rw [dif_neg (show (0 : Fin 1) ∉ (vecScatterDims N E wf).sKept by rw [hk]; simp)]
  constructor
  · intro h
    unfold ScatterDims.resultIdx? at h
    split at h
    · rename_i hb
      have h' := Option.some.inj h
      have h0 : ((vecScatterDims N E wf).start (ix1 e) idx (0 : Fin 1) + ((vecScatterDims N E wf).window (ix1 e) (0 : Fin 1) : ℤ)).toNat = n.val :=
        congrArg (fun f : (⟨1, ![N]⟩ : Shape).Idx => (f 0).val) h'
      have hb0 := (hb 0).1
      rw [hs0, hw0] at h0 hb0
      omega
    · exact absurd h (by simp)
  · intro hrow
    unfold ScatterDims.resultIdx?
    have hb : ∀ a : Fin 1, 0 ≤ (vecScatterDims N E wf).start (ix1 e) idx a + ((vecScatterDims N E wf).window (ix1 e) a : ℤ)
        ∧ (vecScatterDims N E wf).start (ix1 e) idx a + ((vecScatterDims N E wf).window (ix1 e) a : ℤ) < ((⟨1, ![N]⟩ : Shape).size a : ℤ) := by
      intro a
      match a with
      | ⟨0, _⟩ =>
        show 0 ≤ (vecScatterDims N E wf).start (ix1 e) idx (0 : Fin 1) + ((vecScatterDims N E wf).window (ix1 e) (0 : Fin 1) : ℤ)
          ∧ (vecScatterDims N E wf).start (ix1 e) idx (0 : Fin 1) + ((vecScatterDims N E wf).window (ix1 e) (0 : Fin 1) : ℤ) < (N : ℤ)
        rw [hs0, hw0, hrow]
        have := n.isLt
        omega
    rw [dif_pos hb]
    congr 1
    funext a
    refine Fin.ext ?_
    match a with
    | ⟨0, _⟩ =>
      show ((vecScatterDims N E wf).start (ix1 e) idx (0 : Fin 1) + ((vecScatterDims N E wf).window (ix1 e) (0 : Fin 1) : ℤ)).toNat = n.val
      rw [hs0, hw0, hrow]
      omega

/-- THE VECTOR SCATTER-ADD READ AT `n`, at the ideal values: the operand's entry plus the sum of the updates' entries
    `e` over the positions `e` whose number (read signed, not clamped) is `n`. -/
theorem vecScatterAdd_apply {N E w : ℕ}
    (wf : ScatterDims.WF ⟨1, ![N]⟩ ⟨2, ![E, 1]⟩ ⟨1, ![E]⟩ [] [0] [0] 1)
    (x : FVec Ideal ⟨1, ![N]⟩ .f32) (idx : IVec ⟨2, ![E, 1]⟩ w) (upd : FVec Ideal ⟨1, ![E]⟩ .f32) (n : Fin N) :
    Host.scatterAdd (F := Ideal) (vecScatterDims N E wf) x idx upd (ix1 n)
      = x (ix1 n) + ∑ e ∈ Finset.univ.filter (fun e : Fin E => (idx (ix2 e (0 : Fin 1))).toInt = (n.val : ℤ)),
          upd (ix1 e) := by
  show Ideal.hostScatterAdd (vecScatterDims N E wf) x idx upd (ix1 n) = _
  unfold Ideal.hostScatterAdd
  congr 1
  rw [Finset.sum_filter, sum_idx1, Finset.sum_filter]
  refine Finset.sum_congr rfl fun e _ => ?_
  simp only [vecScatter_resultIdx]

/-- A sum over the positions `e < A · B · C` of a function of `e`'s three row-major coordinates
    `(e / (B · C), e / C % B, e % C)` is the triple sum. -/
theorem sum_flat3 {M : Type*} [AddCommMonoid M] (A B C : ℕ) (hB : 0 < B) (hC : 0 < C)
    (g : Fin A → Fin B → Fin C → M) :
    ∑ e : Fin (A * B * C),
        g ⟨e.val / (B * C), by
            have h := e.isLt
            exact Nat.div_lt_of_lt_mul (by rw [Nat.mul_comm (B * C) A, ← Nat.mul_assoc]; exact h)⟩
          ⟨e.val / C % B, Nat.mod_lt _ hB⟩ ⟨e.val % C, Nat.mod_lt _ hC⟩
      = ∑ a : Fin A, ∑ b : Fin B, ∑ c : Fin C, g a b c := by
  have hR : ∑ a : Fin A, ∑ b : Fin B, ∑ c : Fin C, g a b c
      = ∑ p : (Fin A × Fin B) × Fin C, g p.1.1 p.1.2 p.2 := by
    rw [Fintype.sum_prod_type, Fintype.sum_prod_type]
  rw [hR]
  refine Fintype.sum_equiv
    (finProdFinEquiv.symm.trans (finProdFinEquiv.symm.prodCongr (Equiv.refl (Fin C)))) _ _ (fun e => ?_)
  have e1 : (⟨e.val / (B * C), by
            have h := e.isLt
            exact Nat.div_lt_of_lt_mul (by rw [Nat.mul_comm (B * C) A, ← Nat.mul_assoc]; exact h)⟩ : Fin A)
      = ((finProdFinEquiv.symm.trans (finProdFinEquiv.symm.prodCongr (Equiv.refl (Fin C)))) e).1.1 := by
    refine Fin.ext ?_
    simp only [Equiv.trans_apply, finProdFinEquiv_symm_apply, Equiv.prodCongr_apply, Prod.map_fst,
      Fin.coe_divNat, Equiv.refl_apply]
    rw [Nat.div_div_eq_div_mul, Nat.mul_comm C B]
  have e2 : (⟨e.val / C % B, Nat.mod_lt _ hB⟩ : Fin B)
      = ((finProdFinEquiv.symm.trans (finProdFinEquiv.symm.prodCongr (Equiv.refl (Fin C)))) e).1.2 := by
    refine Fin.ext ?_
    simp only [Equiv.trans_apply, finProdFinEquiv_symm_apply, Equiv.prodCongr_apply, Prod.map_fst,
      Fin.coe_divNat, Fin.coe_modNat, Equiv.refl_apply]
  have e3 : (⟨e.val % C, Nat.mod_lt _ hC⟩ : Fin C)
      = ((finProdFinEquiv.symm.trans (finProdFinEquiv.symm.prodCongr (Equiv.refl (Fin C)))) e).2 := by
    refine Fin.ext ?_
    simp only [Equiv.trans_apply, finProdFinEquiv_symm_apply, Equiv.prodCongr_apply, Prod.map_snd,
      Fin.coe_modNat, Equiv.refl_apply, id_eq]
  rw [e1, e2, e3]

end Idealize.ShloMosaic.ValueIdx

end
-- ==== Proof.RefRows.lean ====
/-
  The reference's two scatters read at a row, under the index range: row `2048 · b + s` of the scattered sums is the
  segment sum of batch `b` at row number `s`, and the scattered count there is the segment count.
-/
import proofs.«411385_j3925600108956_3_alg».proof.Proof.Gen.ReferenceIdeal.Read
import proofs.«411385_j3925600108956_3_alg».proof.Proof.Spec
import proofs.«411385_j3925600108956_3_alg».proof.Proof.LibRows
import proofs.«411385_j3925600108956_3_alg».proof.Proof.LibCounts
import Idealize.ShloMosaic.Lib.StableHlo.Predicate
import Idealize.ShloMosaic.Lib.IdealHost

noncomputable section

open scoped BigOperators

namespace Cert.ReferenceIdeal.RefRows

open Cert.ReferenceIdeal Cert.ReferenceIdeal.Gen Cert.ReferenceIdeal.Read Idealize.ShloMosaic Idealize.ShloMosaic.ValueIdx

/-- A word whose signed value is in `[0, 2048)` has that unsigned value. -/
theorem word_small (w : BitVec 32) (h0 : 0 ≤ w.toInt) (h1 : w.toInt < 2048) :
    w.toNat < 2048 ∧ w.toInt = (w.toNat : ℤ) := by
  have hlt := w.isLt
  rw [BitVec.toInt_eq_toNat_cond] at h0 h1 ⊢
  split_ifs at h0 h1 ⊢ <;> omega

/-- The flattened row number `2048 · b' + w` as a word, for `b' < 8` and `w < 2048`, does not wrap. -/
theorem flat_toNat (b' : ℕ) (hb : b' < 8) (w : BitVec 32) (hw : w.toNat < 2048) :
    (IntOp.addi (IntOp.muli (BitVec.ofNat 32 b') 2048#32) w).toNat = b' * 2048 + w.toNat := by
  unfold IntOp.addi IntOp.muli
  simp only [BitVec.toNat_add, BitVec.toNat_mul, BitVec.toNat_ofNat]
  omega

/-- The negative-index wrap does not fire on a word below `2 ^ 31`. -/
theorem select_neg (f g : BitVec 32) (hf : f.toNat < 2 ^ 31) :
    Scalar.select (IntOp.cmpi .slt f 0#32) g f = f := by
  unfold Scalar.select
  rw [if_neg]
  intro h
  have := (StableHlo.Predicate.slt_iff_toNat hf (by decide)).mp h
  simp at this

/-- The flattened index word at position `e`: `2048 · (e / 2048) + idx[e / 2048, e / 4 % 512, e % 4]`. -/
theorem flat_eq (x3 : IVec S8x512x4 32) (e : Fin 16384) :
    val_main_v6 (F := Ideal) x3 (ix1 e)
      = IntOp.addi (IntOp.muli (BitVec.ofNat 32 (e.val / 2048)) 2048#32)
          (x3 (ix3 (⟨e.val / 2048, by have := e.isLt; omega⟩ : Fin 8) (⟨e.val / 4 % 512, by omega⟩ : Fin 512)
            (⟨e.val % 4, by omega⟩ : Fin 4))) := by
  rw [val_main_v6_apply, val_main_v5_apply, val_main_v4_apply, val_main_v3_apply, val_main_v2_apply, val_main_c_apply,
    val_main_v1_apply, val_main_v0_apply]
  have hi : idx_main_v6 (ix1 e) = ix3 (⟨e.val / 2048, by have := e.isLt; omega⟩ : Fin 8)
      (⟨e.val / 4 % 512, by omega⟩ : Fin 512) (⟨e.val % 4, by omega⟩ : Fin 4) := by
    funext a; exact Fin.ext (by match a with | ⟨0, _⟩ => rfl | ⟨1, _⟩ => rfl | ⟨2, _⟩ => rfl)
  rw [hi]

/-- Under the index range the flattened index word at `e` has the value `2048 · (e / 2048) + idx[…]`, with the
    index word below `2048`. -/
theorem flat_at_toNat (x3 : IVec S8x512x4 32)
    (hr : ∀ i : S8x512x4.Idx, 0 ≤ (x3 i).toInt ∧ (x3 i).toInt < 2048) (e : Fin 16384) :
    (val_main_v6 (F := Ideal) x3 (ix1 e)).toNat
        = e.val / 2048 * 2048 + (x3 (ix3 (⟨e.val / 2048, by have := e.isLt; omega⟩ : Fin 8) (⟨e.val / 4 % 512, by omega⟩ : Fin 512)
            (⟨e.val % 4, by omega⟩ : Fin 4))).toNat
      ∧ (x3 (ix3 (⟨e.val / 2048, by have := e.isLt; omega⟩ : Fin 8) (⟨e.val / 4 % 512, by omega⟩ : Fin 512)
            (⟨e.val % 4, by omega⟩ : Fin 4))).toNat < 2048 := by
  have he := e.isLt
  have hw := (word_small _ (hr (ix3 (⟨e.val / 2048, by have := e.isLt; omega⟩ : Fin 8) (⟨e.val / 4 % 512, by omega⟩ : Fin 512)
            (⟨e.val % 4, by omega⟩ : Fin 4))).1 (hr _).2).1
  rw [flat_eq]
  exact ⟨flat_toNat _ (by omega) _ hw, hw⟩

/-- Under the index range the scatter's index word at position `e` is the flattened index word. -/
theorem idx16_eq (x3 : IVec S8x512x4 32)
    (hr : ∀ i : S8x512x4.Idx, 0 ≤ (x3 i).toInt ∧ (x3 i).toInt < 2048) (e : Fin 16384) :
    val_main_v16 (F := Ideal) x3 (ix2 e (0 : Fin 1)) = val_main_v6 (F := Ideal) x3 (ix1 e) := by
  rw [val_main_v16_apply, val_main_v15_apply, val_main_v12_apply, val_main_v11_apply, val_main_c_0_apply]
  have hi : idx_main_v16 (ix2 e (0 : Fin 1)) = ix1 e := by
    funext a; exact Fin.ext (by match a with | ⟨0, _⟩ => rfl)
  rw [hi]
  refine select_neg _ _ ?_
  have he := e.isLt
  obtain ⟨h1, h2⟩ := flat_at_toNat x3 hr e
  rw [h1]
  omega

/-- The same for the counts' copy of the index chain. -/
theorem idx24_eq (x3 : IVec S8x512x4 32)
    (hr : ∀ i : S8x512x4.Idx, 0 ≤ (x3 i).toInt ∧ (x3 i).toInt < 2048) (e : Fin 16384) :
    val_main_v24 (F := Ideal) x3 (ix2 e (0 : Fin 1)) = val_main_v6 (F := Ideal) x3 (ix1 e) := by
  rw [val_main_v24_apply, val_main_v23_apply, val_main_v20_apply, val_main_v19_apply, val_main_c_3_apply]
  have hi : idx_main_v24 (ix2 e (0 : Fin 1)) = ix1 e := by
    funext a; exact Fin.ext (by match a with | ⟨0, _⟩ => rfl)
  rw [hi]
  refine select_neg _ _ ?_
  have he := e.isLt
  obtain ⟨h1, h2⟩ := flat_at_toNat x3 hr e
  rw [h1]
  omega

/-- The flattened index word at `e` is row `2048 · b + s` exactly when `e`'s batch is `b` and its index word is `s`. -/
theorem flat_hit (x3 : IVec S8x512x4 32)
    (hr : ∀ i : S8x512x4.Idx, 0 ≤ (x3 i).toInt ∧ (x3 i).toInt < 2048) (b : Fin 8) (s : Fin 2048) (e : Fin 16384) :
    (val_main_v6 (F := Ideal) x3 (ix1 e)).toInt = ((b.val * 2048 + s.val : ℕ) : ℤ)
      ↔ (⟨e.val / 2048, by have := e.isLt; omega⟩ : Fin 8) = b
        ∧ x3 (ix3 (⟨e.val / 2048, by have := e.isLt; omega⟩ : Fin 8) (⟨e.val / 4 % 512, by omega⟩ : Fin 512)
            (⟨e.val % 4, by omega⟩ : Fin 4)) = BitVec.ofNat 32 s.val := by
  have he := e.isLt
  have hb := b.isLt
  have hs := s.isLt
  obtain ⟨hf, hw⟩ := flat_at_toNat x3 hr e
  rw [StableHlo.Predicate.toInt_eq_toNat_of_lt (by rw [hf]; omega), hf, Fin.ext_iff]
  constructor
  · intro h
    have h' : e.val / 2048 * 2048 + (x3 (ix3 (⟨e.val / 2048, by have := e.isLt; omega⟩ : Fin 8) (⟨e.val / 4 % 512, by omega⟩ : Fin 512)
            (⟨e.val % 4, by omega⟩ : Fin 4))).toNat = b.val * 2048 + s.val := by exact_mod_cast h
    refine ⟨by show e.val / 2048 = b.val; omega, BitVec.eq_of_toNat_eq ?_⟩
    rw [BitVec.toNat_ofNat]
    omega
  · rintro ⟨h1, h2⟩
    have h1' : e.val / 2048 = b.val := h1
    rw [h2, BitVec.toNat_ofNat, h1']
    have : s.val % 2 ^ 32 = s.val := by omega
    rw [this]

/-- The updates' row `e` is the graph row `(e / 2048, e / 4 % 512)`, once per slot. -/
theorem upd_eq (x1 : FVec Ideal S8x512x512 .f32) (e : Fin 16384) (j : Fin 512) :
    val_main_v9 (F := Ideal) x1 (ix2 e j) = x1 (ix3 (⟨e.val / 2048, by have := e.isLt; omega⟩ : Fin 8) (⟨e.val / 4 % 512, by omega⟩ : Fin 512) j) := by
  rw [val_main_v9_apply, val_main_v8_apply, val_main_v7_apply]
  congr 1
  funext a
  have he := e.isLt
  have hj := j.isLt
  refine Fin.ext ?_
  match a with
  | ⟨0, _⟩ =>
    show ((e.val * 512 + j.val) / 2048 * 512 + (e.val * 512 + j.val) % 512) / 262144 = e.val / 2048
    omega
  | ⟨1, _⟩ =>
    show ((e.val * 512 + j.val) / 2048 * 512 + (e.val * 512 + j.val) % 512) / 512 % 512 = e.val / 4 % 512
    omega
  | ⟨2, _⟩ =>
    show ((e.val * 512 + j.val) / 2048 * 512 + (e.val * 512 + j.val) % 512) % 512 = j.val
    omega

/-- Row `2048 · b + s`, column `j` of the scattered sums: the flattened index `2048 · b' + idx[b', n, k]` is that row
    exactly when `b' = b` and the index word is `s`, so the sum over the hit positions is the segment sum. -/
theorem sums_eq (x1 : FVec Ideal S8x512x512 .f32) (x3 : IVec S8x512x4 32)
    (hr : ∀ i : S8x512x4.Idx, 0 ≤ (x3 i).toInt ∧ (x3 i).toInt < 2048) (b : Fin 8) (s : Fin 2048) (j : Fin 512) :
    val_main_v17 (F := Ideal) x1 x3
        (ix2 (⟨b.val * 2048 + s.val, by have := b.isLt; have := s.isLt; omega⟩ : Fin 16384) j)
      = Cert.SegMean.segSum x1 x3 b s.val j := by
  unfold val_main_v17
  refine (rowScatterAdd_apply Facts₀.scatter_S16384x512_S16384x1_S16384x512_1_0_0_1_wf (val_main_v10 (F := Ideal))
    (val_main_v16 (F := Ideal) x3) (val_main_v9 (F := Ideal) x1) _ j).trans ?_
  rw [val_main_v10_apply, val_main_cst_apply]
  show (Ideal.ofBits .f32 0x00000000#32 : EReal) + _ = _
  rw [Ideal.ofBits_zero_f32, zero_add, Finset.sum_filter]
  refine (Finset.sum_congr rfl (fun e _ => ?_)).trans
    ((sum_flat3 8 512 4 (by norm_num) (by norm_num)
      (fun (b' : Fin 8) (n : Fin 512) (k : Fin 4) =>
        if b' = b ∧ x3 (ix3 b' n k) = BitVec.ofNat 32 s.val then x1 (ix3 b' n j) else (0 : EReal))).trans ?_)
  · show _ = if (⟨e.val / 2048, by have := e.isLt; omega⟩ : Fin 8) = b
          ∧ x3 (ix3 (⟨e.val / 2048, by have := e.isLt; omega⟩ : Fin 8) (⟨e.val / 4 % 512, by omega⟩ : Fin 512)
            (⟨e.val % 4, by omega⟩ : Fin 4)) = BitVec.ofNat 32 s.val
        then x1 (ix3 (⟨e.val / 2048, by have := e.isLt; omega⟩ : Fin 8) (⟨e.val / 4 % 512, by omega⟩ : Fin 512) j) else (0 : EReal)
    rw [idx16_eq x3 hr, upd_eq]
    exact if_congr (flat_hit x3 hr b s e) rfl rfl
  · rw [Finset.sum_eq_single b]
    · unfold Cert.SegMean.segSum
      refine Finset.sum_congr rfl (fun n _ => Finset.sum_congr rfl (fun k _ => ?_))
      exact if_congr (and_iff_right rfl) rfl rfl
    · intro b' _ hne
      exact Finset.sum_eq_zero (fun n _ => Finset.sum_eq_zero (fun k _ => if_neg (fun h => hne h.1)))
    · intro h
      exact absurd (Finset.mem_univ b) h

/-- The scattered count at row `2048 · b + s` is the segment count. -/
theorem counts_eq (x3 : IVec S8x512x4 32)
    (hr : ∀ i : S8x512x4.Idx, 0 ≤ (x3 i).toInt ∧ (x3 i).toInt < 2048) (b : Fin 8) (s : Fin 2048) :
    val_main_v26 (F := Ideal) x3
        (ix1 (⟨b.val * 2048 + s.val, by have := b.isLt; have := s.isLt; omega⟩ : Fin 16384))
      = Cert.SegMean.segCnt x3 b s.val := by
  unfold val_main_v26
  refine (vecScatterAdd_apply Facts₀.scatter_S16384_S16384x1_S16384_n_0_0_1_wf (val_main_v18 (F := Ideal))
    (val_main_v24 (F := Ideal) x3) (val_main_v25 (F := Ideal)) _).trans ?_
  rw [val_main_v18_apply, val_main_cst_2_apply]
  show (Ideal.ofBits .f32 0x00000000#32 : EReal) + _ = _
  rw [Ideal.ofBits_zero_f32, zero_add, Finset.sum_filter]
  refine (Finset.sum_congr rfl (fun e _ => ?_)).trans
    ((sum_flat3 8 512 4 (by norm_num) (by norm_num)
      (fun (b' : Fin 8) (n : Fin 512) (k : Fin 4) =>
        if b' = b ∧ x3 (ix3 b' n k) = BitVec.ofNat 32 s.val then (1 : EReal) else (0 : EReal))).trans ?_)
  · show _ = if (⟨e.val / 2048, by have := e.isLt; omega⟩ : Fin 8) = b
          ∧ x3 (ix3 (⟨e.val / 2048, by have := e.isLt; omega⟩ : Fin 8) (⟨e.val / 4 % 512, by omega⟩ : Fin 512)
            (⟨e.val % 4, by omega⟩ : Fin 4)) = BitVec.ofNat 32 s.val
        then (1 : EReal) else (0 : EReal)
    rw [idx24_eq x3 hr, val_main_v25_apply, val_main_cst_5_apply]
    refine if_congr (flat_hit x3 hr b s e) ?_ rfl
    exact Ideal.ofBits_one_f32
  · rw [Finset.sum_eq_single b]
    · unfold Cert.SegMean.segCnt
      refine Finset.sum_congr rfl (fun n _ => Finset.sum_congr rfl (fun k _ => ?_))
      exact if_congr (and_iff_right rfl) rfl rfl
    · intro b' _ hne
      exact Finset.sum_eq_zero (fun n _ => Finset.sum_eq_zero (fun k _ => if_neg (fun h => hne h.1)))
    · intro h
      exact absurd (Finset.mem_univ b) h

end Cert.ReferenceIdeal.RefRows

end
-- ==== Proof.RefValue.lean ====
/-
  The reference's result is the specification's function of the argument arrays, under the index range.
-/
import proofs.«411385_j3925600108956_3_alg».proof.Proof.RefRows

noncomputable section

open scoped BigOperators

namespace Cert.ReferenceIdeal.RefValue

open Cert.ReferenceIdeal Cert.ReferenceIdeal.Gen Cert.ReferenceIdeal.Read Idealize.ShloMosaic Idealize.ShloMosaic.ValueIdx

/-- Index by index: a column below 512 reads the quotient of the scattered sums plus `ε` by the clamped scattered count
    at row `2048 · b + s`, a column from 512 on reads the sequence array. -/
theorem ref_eq (x0 : FVec Ideal S8x2048x512 .f32) (x1 : FVec Ideal S8x512x512 .f32) (x3 : IVec S8x512x4 32)
    (hr : ∀ i : S8x512x4.Idx, 0 ≤ (x3 i).toInt ∧ (x3 i).toInt < 2048) :
    val_main_v35 (F := Ideal) x0 x1 x3 = Cert.SegMean.G x0 x1 x3 := by
  funext i
  obtain ⟨b, s, c, rfl⟩ : ∃ (b : Fin 8) (s : Fin 2048) (c : Fin 1024), i = ix3 b s c := ⟨i 0, i 1, i 2, eq_ix3 i⟩
  unfold Cert.SegMean.G
  by_cases h : c.val < 512
  -- a column below 512 lies in the first piece: the reshaped quotient at row `2048 · b + s`, column `c`
  · have hc : ((ix3 b s c : S8x2048x1024.Idx) 2).val < 512 := h
    rw [dif_pos hc]
    unfold val_main_v35
    refine (concatenate_pair_apply_left (t := S8x2048x1024) (s₁ := S8x2048x512) (s₂ := S8x2048x512) (2 : Fin 3) _ _ _
      (ix3 b s c) rfl (ix3 b s (⟨c.val, h⟩ : Fin 512)) ?_).trans ?_
    · intro d; fin_cases d <;> rfl
    show val_main_v34 (F := Ideal) x1 x3 (ix3 b s (⟨c.val, h⟩ : Fin 512)) = Cert.SegMean.meanAt x1 x3 b s.val ⟨c.val, h⟩
    have hb := b.isLt
    have hs := s.isLt
    have e2 : idx_main_v34 (ix3 b s (⟨c.val, h⟩ : Fin 512))
        = ix2 (⟨b.val * 2048 + s.val, by omega⟩ : Fin 16384) (⟨c.val, h⟩ : Fin 512) := by
      funext d
      fin_cases d
      · apply Fin.ext
        show ((b.val * 2048 + s.val) * 512 + c.val) / 512 = b.val * 2048 + s.val
        omega
      · apply Fin.ext
        show ((b.val * 2048 + s.val) * 512 + c.val) % 512 = c.val
        omega
    have e1 : idx_main_v31 (idx_main_v32 (ix2 (⟨b.val * 2048 + s.val, by omega⟩ : Fin 16384) (⟨c.val, h⟩ : Fin 512)))
        = ix1 (⟨b.val * 2048 + s.val, by omega⟩ : Fin 16384) := by
      funext d
      fin_cases d
      rfl
    rw [val_main_v34_apply, e2, val_main_v33_apply, val_main_v28_apply, val_main_v32_apply, val_main_v31_apply, e1,
      val_main_v30_apply, val_main_v27_apply, val_main_cst_6_apply, val_main_v29_apply, val_main_cst_7_apply,
      RefRows.sums_eq x1 x3 hr b s ⟨c.val, h⟩, RefRows.counts_eq x3 hr b s]
    rfl
  -- a column from 512 on lies in the second piece: the sequence array at column `c - 512`
  · have hc : ¬ ((ix3 b s c : S8x2048x1024.Idx) 2).val < 512 := h
    rw [dif_neg hc]
    unfold val_main_v35
    have hc2 := c.isLt
    refine (concatenate_pair_apply_right (t := S8x2048x1024) (s₁ := S8x2048x512) (s₂ := S8x2048x512) (2 : Fin 3) _ _ _
      (ix3 b s c) rfl rfl (ix3 b s (⟨c.val - 512, by omega⟩ : Fin 512)) ?_ ?_).trans ?_
    · intro d hd
      fin_cases d
      · rfl
      · rfl
      · exact absurd rfl hd
    · show c.val - 512 + 512 = c.val
      omega
    · rfl

end Cert.ReferenceIdeal.RefValue

end
-- ==== Proof.PreRange.lean ====
/-
  What the precondition says of the index array: every index word, read signed, is a row number in `[0, 2048)`.
-/
import proofs.«411385_j3925600108956_3_alg».proof.Pre_finite_inputs
import proofs.«411385_j3925600108956_3_alg».proof.Proof.Gen.Pre_finite_inputs
import Idealize.ShloMosaic.Lib.ReduceAll
import Idealize.ShloMosaic.Lib.StableHlo.Predicate
import Idealize.ShloMosaic.Lib.ValueIdx

noncomputable section

namespace Cert.SegMean

open Idealize.ShloMosaic

/-- If the printed precondition is all ones, every index word read signed lies in `[0, 2048)`. -/
theorem idx_range {F : FTy → Type} [FloatOps F]
    (a0 : FVec F Cert.Pre_finite_inputs.S8x2048x512 .f32) (a1 : FVec F Cert.Pre_finite_inputs.S8x512x512 .f32)
    (a2 : FVec F Cert.Pre_finite_inputs.S8x1024 .f32) (a3 : IVec Cert.Pre_finite_inputs.S8x512x4 32)
    (h : Cert.Pre_finite_inputs.fn (F := F) a0 a1 a2 a3 = fun _ => 1#1) (i : Cert.Pre_finite_inputs.S8x512x4.Idx) :
    0 ≤ (a3 i).toInt ∧ (a3 i).toInt < 2048 := by
  -- the result has a single index, so a conjunction over all positions that is one is one at every position
  haveI : Subsingleton Cert.Pre_finite_inputs.S_.Idx := ⟨fun a b => funext fun d => d.elim0⟩
  have h0 := congrFun h ValueIdx.ix0
  dsimp only [Cert.Pre_finite_inputs.fn, Cert.Pre_finite_inputs.fn_part1] at h0
  -- the last two conjuncts are the lower and the upper bound; the finiteness conjuncts are not used
  obtain ⟨h1, hlt⟩ := IntOp.andi_eq_one.1 h0
  obtain ⟨-, hge⟩ := IntOp.andi_eq_one.1 h1
  have hge' := Host.reduce_andi_all _ _ _ _ _ hge i
  have hlt' := Host.reduce_andi_all _ _ _ _ _ hlt i
  -- a comparison word that is one says the signed order of its operands; the scalar broadcast reads its
  -- constant at every position, so the compared words are 0 and 2048
  have e0 : (0#32 : BitVec 32).toInt ≤ (a3 i).toInt := IntOp.cmpi_sge.1 hge'
  have e1 : (a3 i).toInt < (2048#32 : BitVec 32).toInt := IntOp.cmpi_slt.1 hlt'
  exact ⟨e0, e1⟩

end Cert.SegMean

end
-- ==== Proof.lean ====
/-
  The certificate: a segment mean fused with a concatenation, as one-hot matrix products on the TensorCore, against
  a flattened scatter-add on the host.

  For every batch `b`, destination row `s` and feature column `j` the result holds
  `(Σ_{(n,k) : idx[b,n,k] = s} go[b,n,j] + ε) / max (#{(n,k) : idx[b,n,k] = s}, 1)` in its columns `0 … 511` and the
  sequence array's row in its columns `512 … 1023` (Proof/Spec.lean). The kernel builds, per row tile, the matrix of
  hit counts `M[s, n] = #{k : idx[b,n,k] = s}` and takes `M · go[b]` and `M`'s row sums: over the extended reals a
  product by a sum of zeros and ones distributes, so this is the sum over the hit pairs (Proof/KernelRow.lean), and
  the sixteen blocks tile the result (Proof/KernelArray.lean). The reference flattens `(b, s)` to the row
  `2048 · b + s` and scatter-adds: with every index a row number in `[0, 2048)` — the precondition
  (Proof/PreRange.lean) — the flattened index is that row exactly for the pairs of batch `b` whose index is `s`
  (Proof/RefRows.lean, Proof/RefValue.lean). Both sides then apply the same `+ ε`, `max (·, 1)` and quotient.
  The ideal pass rewrote nothing, so `preserves` is `True`.
-/
import proofs.«411385_j3925600108956_3_alg».proof.Defs
import proofs.«411385_j3925600108956_3_alg».proof.Proof.Gen.Kernel
import proofs.«411385_j3925600108956_3_alg».proof.Proof.Gen.KernelIdeal
import proofs.«411385_j3925600108956_3_alg».proof.Proof.Gen.ReferenceIdeal
import proofs.«411385_j3925600108956_3_alg».proof.Proof.Gen.Pre_finite_inputs
import proofs.«411385_j3925600108956_3_alg».proof.Proof.KernelFrame
import proofs.«411385_j3925600108956_3_alg».proof.Proof.KernelIdealFrame
import proofs.«411385_j3925600108956_3_alg».proof.Proof.Gen.ReferenceIdeal.Run
import proofs.«411385_j3925600108956_3_alg».proof.Proof.Gen.ReferenceIdeal.Read
import proofs.«411385_j3925600108956_3_alg».proof.Proof.KernelArray
import proofs.«411385_j3925600108956_3_alg».proof.Proof.RefValue
import proofs.«411385_j3925600108956_3_alg».proof.Proof.PreRange
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_k : Cert.frame_Kernel := fun m ρ _ => Cert.Kernel.GenP.frame m ρ

/-- So does the idealized kernel. -/
theorem frame_ki : Cert.frame_KernelIdeal := fun m ρ _ => Cert.KernelIdeal.GenP.frame m ρ

/-- The reference has no kernel: its frame is its run with the results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- The ideal pass rewrote no operation. -/
theorem preserves : Cert.preserves_Kernel_KernelIdeal := trivial

/-- From memories agreeing on the arguments, with every index a row number in `[0, 2048)`, both programs end with the
    specification's function of the arguments as first result and the third argument, unchanged, as second. -/
theorem algebraic : Cert.algebraic_KernelIdeal_ReferenceIdeal := by
  intro m ρ m' ρ' hpre hagree
  refine ⟨fun c => Cert.SegMean.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)),
    fun c => m ((c.tc : Thread Cert.KernelIdeal.nD Cert.KernelIdeal.τ).loc Cert.KernelIdeal.main_arg2), ?_, ?_⟩
  · exact (θ_run Cert.KernelIdeal.defs _ _).mono (fun r h c => ⟨(h c).1, (h c).2.2.2.1, (h c).2⟩)
      (Cert.KernelIdeal.ArrayValue.run m ρ)
  · refine (θ_run Cert.ReferenceIdeal.defs _ _).mono (fun r h c => ⟨(h c).1.trans ?_, (h c).2.1.trans (hagree c).2.2.1, (h c).2.2⟩)
      (Cert.ReferenceIdeal.Value.run (F := Ideal) m' ρ')
    rw [Cert.ReferenceIdeal.Read.val_main_v35_eq, (hagree c).1, (hagree c).2.1, (hagree c).2.2.2]
    exact Cert.ReferenceIdeal.RefValue.ref_eq _ _ _
      (fun i => Cert.SegMean.idx_range (F := Ideal) _ _ _ _ (hpre c) i)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
